-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2048x1000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536 : Shape := ⟨1, ![65536]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x256 .f32) (main_arg1 : IVec S65536 32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 32 := constantI S_ 32 1000#32
  let main_v6 : IVec S65536 32 := broadcastInDim S65536 ![] bcast_S_S65536 main_c_1
  let main_v7 : IVec S65536 1 := cmpi .slt main_arg1 main_v6
  let main_v8 : IVec S65536 1 := andi main_v5 main_v7
  let main_c_2 : IVec S_ 1 := constantI S_ 1 1#1
  let main_v9 : IVec S_ 1 := (fun x v => Host.reduce IntOp.andi x v reducesTo_S65536_S_d0 h_S_) main_v8 main_c_2
  let main_v10 : IVec S_ 1 := andi main_v3 main_v9
  main_v10
-- ==== Kernel.lean ====
abbrev S65536x256 : Shape := ⟨2, ![65536, 256]⟩
abbrev S65536 : Shape := ⟨1, ![65536]⟩
abbrev S2x1000x256 : Shape := ⟨3, ![2, 1000, 256]⟩
abbrev S2x1x1000 : Shape := ⟨3, ![2, 1, 1000]⟩
abbrev S2048x256 : Shape := ⟨2, ![2048, 256]⟩
abbrev S2048 : Shape := ⟨1, ![2048]⟩
abbrev S1x1000x256 : Shape := ⟨3, ![1, 1000, 256]⟩
abbrev S1x1x1000 : Shape := ⟨3, ![1, 1, 1000]⟩
abbrev S1000x256 : Shape := ⟨2, ![1000, 256]⟩
abbrev S1000 : Shape := ⟨1, ![1000]⟩
abbrev S2048x1 : Shape := ⟨2, ![2048, 1]⟩
abbrev S2048x1000 : Shape := ⟨2, ![2048, 1000]⟩
abbrev S_ : Shape := ⟨0, ![]⟩
abbrev S1x1000 : Shape := ⟨2, ![1, 1000]⟩
abbrev S1000x1 : Shape := ⟨2, ![1000, 1]⟩
abbrev S2x1x1 : Shape := ⟨3, ![2, 1, 1]⟩
abbrev S1024x256 : Shape := ⟨2, ![1024, 256]⟩
abbrev S1024 : Shape := ⟨1, ![1024]⟩
abbrev S1x1x1 : Shape := ⟨3, ![1, 1, 1]⟩
abbrev S1x1 : Shape := ⟨2, ![1, 1]⟩
abbrev S1024x1 : Shape := ⟨2, ![1024, 1]⟩
abbrev S1024x1000 : Shape := ⟨2, ![1024, 1000]⟩
abbrev S1x1024x1 : Shape := ⟨3, ![1, 1024, 1]⟩
abbrev S1 : Shape := ⟨1, ![1]⟩

abbrev nBuf : Space → Nat
  | .hbm => 31
  | .vmem => 15
  | .smem => 0
  | _ => 0

abbrev bufTy : (tb : Table) → Fin (tcTables nBuf tb) → BufTy
  | .hbm, ⟨0, _⟩ => ⟨S65536x256, .f32⟩
  | .hbm, ⟨1, _⟩ => ⟨S65536, .i32⟩
  | .hbm, ⟨2, _⟩ => ⟨S2x1000x256, .f32⟩
  | .hbm, ⟨3, _⟩ => ⟨S2x1x1000, .f32⟩
  | .hbm, ⟨4, _⟩ => ⟨S_, .f32⟩
  | .hbm, ⟨5, _⟩ => ⟨S1000x256, .f32⟩
  | .hbm, ⟨6, _⟩ => ⟨S_, .f32⟩
  | .hbm, ⟨7, _⟩ => ⟨S1x1000, .f32⟩
  | .hbm, ⟨8, _⟩ => ⟨S1000, .f32⟩
  | .hbm, ⟨9, _⟩ => ⟨S_, .f32⟩
  | .hbm, ⟨10, _⟩ => ⟨S1000, .f32⟩
  | .hbm, ⟨11, _⟩ => ⟨S1000, .f32⟩
  | .hbm, ⟨12, _⟩ => ⟨S1000x1, .f32⟩
  | .hbm, ⟨13, _⟩ => ⟨S1000x256, .f32⟩
  | .hbm, ⟨14, _⟩ => ⟨S1000x256, .f32⟩
  | .hbm, ⟨15, _⟩ => ⟨S1000x256, .f32⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S_, .f32⟩
  | .hbm, ⟨20, _⟩ => ⟨S1000, .f32⟩
  | .hbm, ⟨21, _⟩ => ⟨S1000, .f32⟩
  | .hbm, ⟨22, _⟩ => ⟨S1000x1, .f32⟩
  | .hbm, ⟨23, _⟩ => ⟨S1000x256, .f32⟩
  | .hbm, ⟨24, _⟩ => ⟨S1000x256, .f32⟩
  | .hbm, ⟨25, _⟩ => ⟨S1000x256, .bf16⟩
  | .hbm, ⟨26, _⟩ => ⟨S2x1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048, .i32⟩
  | .local _ .vmem, ⟨3, _⟩ => ⟨S2048, .i32⟩
  | .local _ .vmem, ⟨4, _⟩ => ⟨S1x1000x256, .f32⟩
  | .local _ .vmem, ⟨5, _⟩ => ⟨S1x1000x256, .f32⟩
  | .local _ .vmem, ⟨6, _⟩ => ⟨S1x1x1000, .f32⟩
  | .local _ .vmem, ⟨7, _⟩ => ⟨S1x1x1000, .f32⟩
  | .local _ .vmem, ⟨8, _⟩ => ⟨S1024x256, .f32⟩
  | .local _ .vmem, ⟨9, _⟩ => ⟨S1024x256, .f32⟩
  | .local _ .vmem, ⟨10, _⟩ => ⟨S1024, .i32⟩
  | .local _ .vmem, ⟨11, _⟩ => ⟨S1024, .i32⟩
  | .local _ .vmem, ⟨12, _⟩ => ⟨S1000x256, .bf16⟩
  | .local _ .vmem, ⟨13, _⟩ => ⟨S1x1x1, .f32⟩
  | .local _ .vmem, ⟨14, _⟩ => ⟨S1x1x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1000x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1x1000x256_S1x1000x256_0_0_0 : ∀ a, (![0, 0, 0] : Fin 3 → Nat) a + S1x1000x256.size a ≤ S1x1000x256.size a
  h_S1x1000x256 : 0 < S1x1000x256.numel
  shapeCasts_S1x1000x256_S1000x256 : S1x1000x256.ShapeCasts S1000x256
  shapeCasts_S1000x256_S1x1000x256 : S1000x256.ShapeCasts S1x1000x256
  inb_S1x1x1000_S1x1x1000_0_0_0 : ∀ a, (![0, 0, 0] : Fin 3 → Nat) a + S1x1x1000.size a ≤ S1x1x1000.size a
  h_S1x1x1000 : 0 < S1x1x1000.numel
  shapeCasts_S1x1x1000_S1000 : S1x1x1000.ShapeCasts S1000
  shapeCasts_S1000_S1x1x1000 : S1000.ShapeCasts S1x1x1000
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  bitsLt_bf16_f32 : FTy.bits .bf16 < FTy.bits .f32
  inb_S2048_S2048_0 : ∀ a, (![0] : Fin 1 → Nat) a + S2048.size a ≤ S2048.size a
  h_S2048 : 0 < S2048.numel
  iota_S2048x1000_d1_w32 : S2048x1000.Iotas .tc 32 [1]
  broadcasts_S2048x1_S2048x1000 : S2048x1.Broadcasts S2048x1000
  natLt_1_32 : 1 < 32
  reduces_S2048x1000_S1000 : S2048x1000.Reduces [0] S1000
  reducesTo_S2x1000x256_S1000x256_d0 : S2x1000x256.ReducesTo [0] S1000x256
  h_S_ : 0 < S_.numel
  reducesTo_S2x1x1000_S1x1000_d0 : S2x1x1000.ReducesTo [0] S1x1000
  shapeCasts_S1x1000_S1000 : S1x1000.ShapeCasts S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  reducesTo_S1000x256_S1000_d1 : S1000x256.ReducesTo [1] S1000
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1024_S1024_0 : ∀ a, (![0] : Fin 1 → Nat) a + S1024.size a ≤ S1024.size a
  h_S1024 : 0 < S1024.numel
  iota_S1024x1000_d1_w32 : S1024x1000.Iotas .tc 32 [1]
  broadcasts_S1024x1_S1024x1000 : S1024x1.Broadcasts S1024x1000
  reduces_S1024x1000_S1024 : S1024x1000.Reduces [1] S1024
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  reducesTo_S2x1x1_S_d0_1_2 : S2x1x1.ReducesTo [0, 1, 2] S_
  dot_S2048x1000_S2048x256_S1000x256_0_0_1_1_n_n_wf : DotDims.WF S2048x1000 S2048x256 S1000x256 [0] [0] [1] [1] [] []
  dot_S1024x256_S1000x256_S1024x1000_1_1_0_0_n_n_wf : DotDims.WF S1024x256 S1000x256 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S65536.size a
  hwx0_1 : ∀ i : grid0.Coords, EltTy.bits .i32 = 32 ∨ (Rect.block (s := S65536) S2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x256.size a ≤ S2x1000x256.size a
  hwx0_2 : ∀ i : grid0.Coords, EltTy.bits .f32 = 32 ∨ (Rect.block (s := S2x1000x256) S1x1000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1000.size a ≤ S2x1x1000.size a
  hwx0_3 : ∀ i : grid0.Coords, EltTy.bits .f32 = 32 ∨ (Rect.block (s := S2x1x1000) S1x1x1000.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S65536x256.size a
  hwx1_0 : ∀ i : grid1.Coords, EltTy.bits .f32 = 32 ∨ (Rect.block (s := S65536x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S65536.size a
  hwx1_1 : ∀ i : grid1.Coords, EltTy.bits .i32 = 32 ∨ (Rect.block (s := S65536) S1024.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S1000x256.size a
  hwx1_2 : ∀ i : grid1.Coords, EltTy.bits .bf16 = 32 ∨ (Rect.block (s := S1000x256) S1000x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S2x1x1.size a
  hwx1_3 : ∀ i : grid1.Coords, EltTy.bits .f32 = 32 ∨ (Rect.block (s := S2x1x1) S1x1x1.size (cc1_transform_3 i) (hinb1_3 i)).WholeWords (EltTy.packing .f32)

variable [Facts₀]

def dot_S2048x1000_S2048x256_S1000x256_0_0_1_1_n_n : DotDims S2048x1000 S2048x256 S1000x256 where
  lhsContracting := [0]
  rhsContracting := [0]
  lhsNonContracting := [1]
  rhsNonContracting := [1]
  lhsBatch := []
  rhsBatch := []
  wf := dot_S2048x1000_S2048x256_S1000x256_0_0_1_1_n_n_wf
def dot_S1024x256_S1000x256_S1024x1000_1_1_0_0_n_n : DotDims S1024x256 S1000x256 S1024x1000 where
  lhsContracting := [1]
  rhsContracting := [1]
  lhsNonContracting := [0]
  rhsNonContracting := [0]
  lhsBatch := []
  rhsBatch := []
  wf := dot_S1024x256_S1000x256_S1024x1000_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1000x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S65536x256 : Shape := ⟨2, ![65536, 256]⟩
abbrev S65536 : Shape := ⟨1, ![65536]⟩
abbrev S_ : Shape := ⟨0, ![]⟩
abbrev S65536x1 : Shape := ⟨2, ![65536, 1]⟩
abbrev S1000x256 : Shape := ⟨2, ![1000, 256]⟩
abbrev S1000 : Shape := ⟨1, ![1000]⟩
abbrev S1000x1 : Shape := ⟨2, ![1000, 1]⟩
abbrev S256x1000 : Shape := ⟨2, ![256, 1000]⟩
abbrev S65536x1000 : Shape := ⟨2, ![65536, 1000]⟩
abbrev S1x1000 : Shape := ⟨2, ![1, 1000]⟩
abbrev S65536x2 : Shape := ⟨2, ![65536, 2]⟩

abbrev nBuf : Space → Nat
  | .hbm => 99
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536, .i32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S65536x256, .f32⟩
  | .hbm, ⟨11, _⟩ => ⟨S65536x256, .f32⟩
  | .hbm, ⟨12, _⟩ => ⟨S_, .f32⟩
  | .hbm, ⟨13, _⟩ => ⟨S1000x256, .f32⟩
  | .hbm, ⟨14, _⟩ => ⟨S65536x1, .i32⟩
  | .hbm, ⟨15, _⟩ => ⟨S1000x256, .f32⟩
  | .hbm, ⟨16, _⟩ => ⟨S_, .f32⟩
  | .hbm, ⟨17, _⟩ => ⟨S65536, .f32⟩
  | .hbm, ⟨18, _⟩ => ⟨S_, .f32⟩
  | .hbm, ⟨19, _⟩ => ⟨S1000, .f32⟩
  | .hbm, ⟨20, _⟩ => ⟨S65536x1, .i32⟩
  | .hbm, ⟨21, _⟩ => ⟨S1000, .f32⟩
  | .hbm, ⟨22, _⟩ => ⟨S_, .f32⟩
  | .hbm, ⟨23, _⟩ => ⟨S1000, .f32⟩
  | .hbm, ⟨24, _⟩ => ⟨S1000, .f32⟩
  | .hbm, ⟨25, _⟩ => ⟨S1000x1, .f32⟩
  | .hbm, ⟨26, _⟩ => ⟨S1000x256, .f32⟩
  | .hbm, ⟨27, _⟩ => ⟨S1000x256, .f32⟩
  | .hbm, ⟨28, _⟩ => ⟨S1000x256, .f32⟩
  | .hbm, ⟨29, _⟩ => ⟨S_, .f32⟩
  | .hbm, ⟨30, _⟩ => ⟨S1000, .f32⟩
  | .hbm, ⟨31, _⟩ => ⟨S1000, .f32⟩
  | .hbm, ⟨32, _⟩ => ⟨S_, .f32⟩
  | .hbm, ⟨33, _⟩ => ⟨S1000, .f32⟩
  | .hbm, ⟨34, _⟩ => ⟨S1000, .f32⟩
  | .hbm, ⟨35, _⟩ => ⟨S256x1000, .f32⟩
  | .hbm, ⟨36, _⟩ => ⟨S65536x1000, .f32⟩
  | .hbm, ⟨37, _⟩ => ⟨S1x1000, .f32⟩
  | .hbm, ⟨38, _⟩ => ⟨S65536x1000, .f32⟩
  | .hbm, ⟨39, _⟩ => ⟨S65536x1000, .f32⟩
  | .hbm, ⟨40, _⟩ => ⟨S65536, .i32⟩
  | .hbm, ⟨41, _⟩ => ⟨S_, .i32⟩
  | .hbm, ⟨42, _⟩ => ⟨S65536, .i32⟩
  | .hbm, ⟨43, _⟩ => ⟨S65536, .i1⟩
  | .hbm, ⟨44, _⟩ => ⟨S_, .i32⟩
  | .hbm, ⟨45, _⟩ => ⟨S65536, .i32⟩
  | .hbm, ⟨46, _⟩ => ⟨S65536, .i32⟩
  | .hbm, ⟨47, _⟩ => ⟨S65536, .i32⟩
  | .hbm, ⟨48, _⟩ => ⟨S_, .i32⟩
  | .hbm, ⟨49, _⟩ => ⟨S65536, .i32⟩
  | .hbm, ⟨50, _⟩ => ⟨S65536, .i1⟩
  | .hbm, ⟨51, _⟩ => ⟨S_, .i32⟩
  | .hbm, ⟨52, _⟩ => ⟨S65536, .i32⟩
  | .hbm, ⟨53, _⟩ => ⟨S65536, .i32⟩
  | .hbm, ⟨54, _⟩ => ⟨S65536, .i32⟩
  | .hbm, ⟨55, _⟩ => ⟨S65536x1, .i32⟩
  | .hbm, ⟨56, _⟩ => ⟨S65536x1, .i32⟩
  | .hbm, ⟨57, _⟩ => ⟨S65536x2, .i32⟩
  | .hbm, ⟨58, _⟩ => ⟨S65536, .f32⟩
  | .hbm, ⟨59, _⟩ => ⟨S_, .f32⟩
  | .hbm, ⟨60, _⟩ => ⟨S65536, .f32⟩
  | .hbm, ⟨61, _⟩ => ⟨S65536, .f32⟩
  | .hbm, ⟨62, _⟩ => ⟨S65536, .f32⟩
  | .hbm, ⟨63, _⟩ => ⟨S_, .f32⟩
  | .hbm, ⟨64, _⟩ => ⟨S65536x1000, .f32⟩
  | .hbm, ⟨65, _⟩ => ⟨S65536x1000, .f32⟩
  | .hbm, ⟨66, _⟩ => ⟨S_, .f32⟩
  | .hbm, ⟨67, _⟩ => ⟨S65536x1000, .f32⟩
  | .hbm, ⟨68, _⟩ => ⟨S65536x1000, .f32⟩
  | .hbm, ⟨69, _⟩ => ⟨S65536x1000, .f32⟩
  | .hbm, ⟨70, _⟩ => ⟨S_, .i32⟩
  | .hbm, ⟨71, _⟩ => ⟨S65536, .i32⟩
  | .hbm, ⟨72, _⟩ => ⟨S65536, .i1⟩
  | .hbm, ⟨73, _⟩ => ⟨S_, .i32⟩
  | .hbm, ⟨74, _⟩ => ⟨S65536, .i32⟩
  | .hbm, ⟨75, _⟩ => ⟨S65536, .i32⟩
  | .hbm, ⟨76, _⟩ => ⟨S65536, .i32⟩
  | .hbm, ⟨77, _⟩ => ⟨S_, .i32⟩
  | .hbm, ⟨78, _⟩ => ⟨S65536, .i32⟩
  | .hbm, ⟨79, _⟩ => ⟨S65536, .i1⟩
  | .hbm, ⟨80, _⟩ => ⟨S_, .i32⟩
  | .hbm, ⟨81, _⟩ => ⟨S65536, .i32⟩
  | .hbm, ⟨82, _⟩ => ⟨S65536, .i32⟩
  | .hbm, ⟨83, _⟩ => ⟨S65536, .i32⟩
  | .hbm, ⟨84, _⟩ => ⟨S65536x1, .i32⟩
  | .hbm, ⟨85, _⟩ => ⟨S65536x1, .i32⟩
  | .hbm, ⟨86, _⟩ => ⟨S65536x2, .i32⟩
  | .hbm, ⟨87, _⟩ => ⟨S65536, .f32⟩
  | .hbm, ⟨88, _⟩ => ⟨S_, .f32⟩
  | .hbm, ⟨89, _⟩ => ⟨S65536, .f32⟩
  | .hbm, ⟨90, _⟩ => ⟨S65536, .f32⟩
  | .hbm, ⟨91, _⟩ => ⟨S_, .f32⟩
  | .hbm, ⟨92, _⟩ => ⟨S65536, .f32⟩
  | .hbm, ⟨93, _⟩ => ⟨S65536, .f32⟩
  | .hbm, ⟨94, _⟩ => ⟨S65536, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_call2_cst : Ref sig .tc := ⟨.hbm, 66, rfl⟩
abbrev main_call2_v0 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_c_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_c_13 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_cst_15 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_16 : Ref sig .tc := ⟨.hbm, 95, rfl⟩
abbrev main_v66 : Ref sig .tc := ⟨.hbm, 96, rfl⟩
abbrev main_cst_17 : Ref sig .tc := ⟨.hbm, 97, rfl⟩
abbrev main_v67 : Ref sig .tc := ⟨.hbm, 98, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  bcast_S_S1000x256 : S_.BroadcastsInDim S1000x256 (![] : Fin 0 → Fin S1000x256.rank)
  bcast_S_S65536 : S_.BroadcastsInDim S65536 (![] : Fin 0 → Fin S65536.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  reducesTo_S1000x256_S1000_d1 : S1000x256.ReducesTo [1] S1000
  transposes_S1000x256_S256x1000_1_0 : S1000x256.Transposes [1, 0] S256x1000
  bcast_S1000_S1x1000_1 : S1000.BroadcastsInDim S1x1000 (![1] : Fin 1 → Fin S1x1000.rank)
  bcast_S1x1000_S65536x1000_0_1 : S1x1000.BroadcastsInDim S65536x1000 (![0, 1] : Fin 2 → Fin S65536x1000.rank)
  concatenates_S65536x1_S65536x1_S65536x2_d1 : Shape.Concatenates [S65536x1, S65536x1] S65536x2 1
  bcast_S_S65536x1000 : S_.BroadcastsInDim S65536x1000 (![] : Fin 0 → Fin S65536x1000.rank)
  reducesTo_S65536x1000_S65536_d1 : S65536x1000.ReducesTo [1] S65536
  reducesTo_S65536_S_d0 : S65536.ReducesTo [0] S_
  scatter_S1000x256_S65536x1_S65536x256_1_0_0_1_wf : ScatterDims.WF S1000x256 S65536x1 S65536x256 [1] [0] [0] 1
  scatter_S1000_S65536x1_S65536_n_0_0_1_wf : ScatterDims.WF S1000 S65536x1 S65536 [] [0] [0] 1
  dot_S65536x256_S256x1000_S65536x1000_1_0_0_1_n_n_wf : DotDims.WF S65536x256 S256x1000 S65536x1000 [1] [0] [0] [1] [] []
  gather_S65536x1000_S65536x2_S65536_n_01_n_n_01_1_11_wf : GatherDims.WF S65536x1000 S65536x2 S65536 [] [0, 1] [] [0, 1] [] 1 ![1, 1]

variable [Facts₀]

def scatter_S1000x256_S65536x1_S65536x256_1_0_0_1 : ScatterDims S1000x256 S65536x1 S65536x256 where
  updateWindowDims := [1]
  insertedWindowDims := [0]
  scatterDimsToOperandDims := [0]
  indexVectorDim := 1
  wf := scatter_S1000x256_S65536x1_S65536x256_1_0_0_1_wf
def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf
def dot_S65536x256_S256x1000_S65536x1000_1_0_0_1_n_n : DotDims S65536x256 S256x1000 S65536x1000 where
  lhsContracting := [1]
  rhsContracting := [0]
  lhsNonContracting := [0]
  rhsNonContracting := [1]
  lhsBatch := []
  rhsBatch := []
  wf := dot_S65536x256_S256x1000_S65536x1000_1_0_0_1_n_n_wf
def gather_S65536x1000_S65536x2_S65536_n_01_n_n_01_1_11 : GatherDims S65536x1000 S65536x2 S65536 where
  offsetDims := []
  collapsedSliceDims := [0, 1]
  operandBatchingDims := []
  startIndicesBatchingDims := []
  startIndexMap := [0, 1]
  indexVectorDim := 1
  sliceSizes := ![1, 1]
  wf := gather_S65536x1000_S65536x2_S65536_n_01_n_n_01_1_11_wf

class Facts : Prop extends Facts₀ where

variable [Facts]
-- ==== Proof.Spec.lean ====
import Idealize.ShloMosaic.PureOps.Ideal
import Idealize.ShloMosaic.Lib.ValueIdx
import Idealize.ShloMosaic.Lib.ValueIdxRank1

noncomputable section

namespace Cert.Spec

open Idealize.ShloMosaic Idealize.ShloMosaic.ValueIdx

/-! The loss both programs compute, written once over the extended reals, index by index.
    Rows of `X` are normalized by their clamped Euclidean norm; per class the normalized rows are summed and
    counted; the class centers `C` and their clamped norms `D` come from those by operations the two programs
    share, so they stay parameters here; each row is then scored against every center. -/

abbrev SC : Shape := ⟨2, ![1000, 256]⟩
abbrev SD : Shape := ⟨1, ![1000]⟩

/-- The float literals of the two programs, as extended reals. -/
def eps12 : EReal := Ideal.ofBits .f32 0x2B8CBCCC#32
def eps8 : EReal := Ideal.ofBits .f32 0x322BCC77#32
def one32 : EReal := Ideal.ofBits .f32 0x3F800000#32
def zero32 : EReal := Ideal.ofBits .f32 0x00000000#32
def c999 : EReal := Ideal.ofBits .f32 0x4479C000#32
def c65536 : EReal := Ideal.ofBits .f32 0x47800000#32

section Rows
variable {R : Nat} (X : (⟨2, ![R, 256]⟩ : Shape).Idx → EReal) (L : (⟨1, ![R]⟩ : Shape).Idx → BitVec 32)

/-- Row n's clamped Euclidean norm. -/
def nrm (n : Fin R) : EReal :=
  max (Ideal.sqrt (∑ k : Fin 256, X (ix2 n k) * X (ix2 n k))) eps12

/-- The normalized row. -/
def e (n : Fin R) (k : Fin 256) : EReal := Ideal.div (X (ix2 n k)) (nrm X n)

/-- The indicator "row n carries label j". -/
def hot (n : Fin R) (j : Fin 1000) : EReal := if L (ix1 n) = BitVec.ofNat 32 j.val then 1 else 0

/-- Similarity of row n with row j of a [1000, 256] table W. -/
def simW (W : SC.Idx → EReal) (n : Fin R) (j : Fin 1000) : EReal := ∑ k : Fin 256, e X n k * W (ix2 j k)

/-- One row's loss from its similarities s and its similarity with its own label sl. -/
def rowLoss (s : Fin 1000 → EReal) (sl : EReal) : EReal :=
  (sl - one32) * (sl - one32)
    + Ideal.div ((∑ j : Fin 1000, max (one32 - s j) zero32 * max (one32 - s j) zero32)
        - max (one32 - sl) zero32 * max (one32 - sl) zero32) c999

/-- Row n's loss, its own-label similarity taken by the indicator. -/
def rowK (W : SC.Idx → EReal) (n : Fin R) : EReal :=
  rowLoss (simW X W n) (∑ j : Fin 1000, simW X W n j * hot L n j)

end Rows

abbrev SX : Shape := ⟨2, ![65536, 256]⟩
abbrev SL : Shape := ⟨1, ![65536]⟩

variable (X : SX.Idx → EReal) (L : SL.Idx → BitVec 32)

/-- Per-class sums of normalized rows, and per-class counts. -/
def sums (j : Fin 1000) (k : Fin 256) : EReal := ∑ n : Fin 65536, hot L n j * e X n k
def counts (j : Fin 1000) : EReal := ∑ n : Fin 65536, hot L n j

def sumsArr : SC.Idx → EReal := fun i => sums X L (i 0) (i 1)
def countsArr : SD.Idx → EReal := fun i => counts L (i 0)

variable (C : SC.Idx → EReal) (D : SD.Idx → EReal)

/-- The centers with the scale folded in. -/
def scaled : SC.Idx → EReal := fun i => Ideal.div (C i) (D (ix1 (i 0)))

/-- The similarity with the scale applied to the product instead. -/
def simR (n : Fin 65536) (j : Fin 1000) : EReal := Ideal.div (∑ k : Fin 256, e X n k * C (ix2 j k)) (D (ix1 j))

/-- The mean loss, over a table W with the scale folded in. -/
def lossW (W : SC.Idx → EReal) : EReal := Ideal.div (∑ n : Fin 65536, rowK X L W n) c65536

/-- The mean loss, the own-label similarity read at the label. -/
def lossR (lab : Fin 65536 → Fin 1000) : EReal :=
  Ideal.div (∑ n : Fin 65536, rowLoss (simR X C D n) (simR X C D n (lab n))) c65536

/-- A sum over A·B consecutive indices, by blocks of B. -/
theorem sum_blocks {β : Type*} [AddCommMonoid β] (A B : Nat) (f : Nat → β) :
    ∑ n : Fin (A * B), f n.val = ∑ a : Fin A, ∑ b : Fin B, f (B * a.val + b.val) := by
  rw [← Equiv.sum_comp finProdFinEquiv (fun n : Fin (A * B) => f n.val), Fintype.sum_prod_type]
  refine Finset.sum_congr rfl fun a _ => Finset.sum_congr rfl fun b _ => ?_
  show f (finProdFinEquiv (a, b)).val = _
  rw [finProdFinEquiv_apply_val]
  congr 1
  show b.val + B * a.val = B * a.val + b.val
  omega

/-- A nonnegative finite factor may be taken out of a finite sum of extended reals. -/
theorem sum_mul_of_nonneg {ι : Type*} (s : Finset ι) (f : ι → EReal) {r : EReal} (h0 : 0 ≤ r) (ht : r ≠ ⊤) :
    (∑ i ∈ s, f i) * r = ∑ i ∈ s, f i * r := by
  classical
  induction s using Finset.induction_on with
  | empty => simp
  | insert a s ha ih =>
    rw [Finset.sum_insert ha, Finset.sum_insert ha, EReal.right_distrib_of_nonneg_of_ne_top h0 ht, ih]

/-- A positive denominator may be applied to each term of a sum or to the sum. -/
theorem simW_scaled (hD : ∀ j : Fin 1000, 0 < D (ix1 j)) (n : Fin 65536) (j : Fin 1000) :
    simW X (scaled C D) n j = simR X C D n j := by
  have hne : D (ix1 j) ≠ 0 := ne_of_gt (hD j)
  have h0 : 0 ≤ (D (ix1 j))⁻¹ := EReal.inv_nonneg_of_nonneg (le_of_lt (hD j))
  have ht : (D (ix1 j))⁻¹ ≠ ⊤ := ne_of_lt (EReal.inv_lt_top _)
  show ∑ k : Fin 256, e X n k * Ideal.div (C (ix2 j k)) (D (ix1 j)) = Ideal.div (∑ k : Fin 256, e X n k * C (ix2 j k)) (D (ix1 j))
  have hdiv : ∀ x : EReal, Ideal.div x (D (ix1 j)) = x * (D (ix1 j))⁻¹ := fun x => by
    show (if D (ix1 j) = 0 then _ else x * (D (ix1 j))⁻¹) = _
    rw [if_neg hne]
  rw [hdiv, sum_mul_of_nonneg _ _ h0 ht]
  refine Finset.sum_congr rfl fun k _ => ?_
  rw [hdiv, mul_assoc]

/-- Two class numbers with the same 32-bit word are equal. -/
theorem ofNat_eq_iff {a b : Nat} (ha : a < 1000) (hb : b < 1000) : BitVec.ofNat 32 a = BitVec.ofNat 32 b ↔ a = b := by
  constructor
  · intro h
    have h' := congrArg BitVec.toNat h
    rw [BitVec.toNat_ofNat, BitVec.toNat_ofNat, Nat.mod_eq_of_lt (by omega), Nat.mod_eq_of_lt (by omega)] at h'
    exact h'
  · rintro rfl; rfl

/-- Summing a row of similarities against the row's label indicator picks the label's entry. -/
theorem sum_mul_hot (lab : Fin 65536 → Fin 1000) (hlab : ∀ n, L (ix1 n) = BitVec.ofNat 32 (lab n).val)
    (s : Fin 1000 → EReal) (n : Fin 65536) : ∑ j : Fin 1000, s j * hot L n j = s (lab n) := by
  have hh : ∀ j : Fin 1000, hot L n j = if j = lab n then 1 else 0 := fun j => by
    unfold hot
    rw [hlab n]
    by_cases h : j = lab n
    · rw [if_pos h, if_pos (by rw [h])]
    · rw [if_neg h, if_neg (fun h' => h (Fin.ext ((ofNat_eq_iff (lab n).isLt j.isLt).mp h').symm))]
  simp only [hh, mul_ite, mul_one, mul_zero]
  rw [Finset.sum_ite_eq' Finset.univ (lab n) s]
  simp

/-- With every label in range and every denominator positive the two forms of the loss agree. -/
theorem lossW_eq_lossR (lab : Fin 65536 → Fin 1000) (hlab : ∀ n, L (ix1 n) = BitVec.ofNat 32 (lab n).val)
    (hD : ∀ j : Fin 1000, 0 < D (ix1 j)) : lossW X L (scaled C D) = lossR X C D lab := by
  show Ideal.div (∑ n : Fin 65536, rowK X L (scaled C D) n) c65536
    = Ideal.div (∑ n : Fin 65536, rowLoss (simR X C D n) (simR X C D n (lab n))) c65536
  refine congrArg (fun s => Ideal.div s c65536) ?_
  refine Finset.sum_congr rfl fun n _ => ?_
  unfold rowK
  have hs : simW X (scaled C D) n = simR X C D n := funext fun j => simW_scaled X C D hD n j
  rw [hs, sum_mul_hot L lab hlab]

/-- The denominators' clamp is a positive number. -/
theorem eps8_pos : 0 < eps8 := by
  unfold eps8
  simp [Ideal.ofBits, Ideal.ieee, -EReal.coe_mul]

/-- The specification's definitions unfold by equations stated here, once. -/
theorem equations_realized : True := by
  have := @nrm.eq_1; have := @e.eq_1; have := @hot.eq_1; have := @simW.eq_1; have := @rowLoss.eq_1; have := @rowK.eq_1
  have := @sums.eq_1; have := @counts.eq_1; have := @sumsArr.eq_1; have := @countsArr.eq_1; have := @scaled.eq_1
  have := @simR.eq_1; have := @lossW.eq_1; have := @lossR.eq_1
  have := @eps12.eq_1; have := @eps8.eq_1; have := @one32.eq_1; have := @zero32.eq_1; have := @c999.eq_1; have := @c65536.eq_1
  trivial

end Cert.Spec

end
-- ==== Proof.PreDecode.lean ====
import proofs.«431141_j78185584657074_2_alg».proof.Pre_finite_inputs
import proofs.«431141_j78185584657074_2_alg».proof.Proof.Gen.Pre_finite_inputs
import Idealize.ShloMosaic.PureOps.Ideal
import Idealize.ShloMosaic.Lib.ValueIdx
import Idealize.ShloMosaic.Lib.ReduceAll
import Idealize.ShloMosaic.Lib.Affine
import Idealize.ShloMosaic.Lib.StableHlo.Predicate

set_option maxRecDepth 16384

noncomputable section

open Idealize.ShloMosaic Idealize.ShloMosaic.ValueIdx

namespace Cert.PreDecode

/-- A 32-bit word that is at least 0 and below n as a signed number, n small, is below n as a natural number. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

instance : Subsingleton Cert.Pre_finite_inputs.S_.Idx := ⟨fun a b => funext fun d => d.elim0⟩

/-- Under the precondition every label is a class number: 0 ≤ label < 1000, signed, so below 1000 unsigned. -/
theorem label_lt {F : FTy → Type} [FloatOps F] (x0 : FVec F Cert.Pre_finite_inputs.S65536x256 .f32) (x1 : IVec Cert.Pre_finite_inputs.S65536 32)
    (h : Cert.Pre_finite_inputs.fn (F := F) x0 x1 = fun _ => 1#1) (n : Fin 65536) : (x1 (ix1 n)).toNat < 1000 := by
  have e := congrFun h ix0
  dsimp only [Cert.Pre_finite_inputs.fn] at e
  -- the conjunction of the two all-reductions
  have e2 := (IntOp.andi_eq_one.mp e).2
  have e3 := Host.reduce_andi_all _ _ _ _ _ e2 (ix1 n)
  have e4 := IntOp.andi_eq_one.mp e3
  exact toNat_lt_of_signed _ 1000 (by decide) e4.1 e4.2

end Cert.PreDecode

end
-- ==== Proof.KHost.lean ====
import proofs.«431141_j78185584657074_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

/-! The host operations of @main around its two kernel calls, as functions of the arrays the calls leave. -/

/-- The class centers: the per-core sums added over the cores, each class divided by its clamped count. -/
def midC (S2 : Vec F S2x1000x256 .f32) (S3 : Vec F S2x1x1000 .f32) : Vec F S1000x256 .f32 :=
  Host.divf (Host.reduceAdd S2 (constant S_ .f32 0x00000000#32) reducesTo_S2x1000x256_S1000x256_d0 h_S_)
    (broadcastInDim S1000x256 ![0, 1] bcast_S1000x1_S1000x256_0_1
      (broadcastInDim S1000x1 ![0] bcast_S1000_S1000x1_0
        (maximumf (shapeCast S1000 (Host.reduceAdd S3 (constant S_ .f32 0x00000000#32) reducesTo_S2x1x1000_S1x1000_d0 h_S_) shapeCasts_S1x1000_S1000)
          (broadcastInDim S1000 ![] bcast_S_S1000 (constant S_ .f32 0x3F800000#32)))))

/-- The clamped Euclidean norms of the centers' rows. -/
def midD (C : Vec F S1000x256 .f32) : Vec F S1000 .f32 :=
  maximumf (Host.sqrt (Host.reduceAdd (mulf C C) (constant S_ .f32 0x00000000#32) reducesTo_S1000x256_S1000_d1 h_S_))
    (broadcastInDim S1000 ![] bcast_S_S1000 (constant S_ .f32 0x322BCC77#32))

/-- The centers with each row divided by its clamped norm, in the narrow format the loss kernel reads. -/
def midW (C : Vec F S1000x256 .f32) : Vec F S1000x256 .bf16 :=
  truncf .bf16 (Host.divf C (broadcastInDim S1000x256 ![0, 1] bcast_S1000x1_S1000x256_0_1
    (broadcastInDim S1000x1 ![0] bcast_S1000_S1000x1_0 (midD C)))) bitsLt_bf16_f32

/-! The three stretches between the kernel calls, each from any contents `W` of the buffers: what the stretch leaves in the
    buffer a later stretch (or the second kernel) reads, as its operations composed over what it finds. -/

section Stretches

variable (W : Valuation τ sig (Elt F))

/-- The first stretch leaves the class centers in `main_v8`: the reshape of the summed counts is the cast of shapes. -/
private theorem after1_v8 :
    StableHlo.after hostOps1 W (Proc.devRef .tc main_v8)
      = midC (W (Proc.devRef .tc main_v0_0) : Vec F S2x1000x256 .f32) (W (Proc.devRef .tc main_v0_1) : Vec F S2x1x1000 .f32) := by
  after_results
  rfl

/-- The called norm leaves the rows' Euclidean norms in `main_v9`: the square root of the summed squares. -/
private theorem after1_1_v9 :
    StableHlo.after hostOps1_1 W (Proc.devRef .tc main_v9)
      = Host.sqrt (Host.reduceAdd (mulf (W (Proc.devRef .tc main_v8) : Vec F S1000x256 .f32) (W (Proc.devRef .tc main_v8) : Vec F S1000x256 .f32))
          (constant S_ .f32 0x00000000#32) reducesTo_S1000x256_S1000_d1 h_S_) := by
  after_results
  rfl

/-- The called norm writes its own values only: the centers stay in `main_v8`. -/
private theorem after1_1_v8 :
    StableHlo.after hostOps1_1 W (Proc.devRef .tc main_v8) = W (Proc.devRef .tc main_v8) := by
  after_results

/-- The third stretch leaves in `main_v15` the centers divided by their clamped norms, narrowed. -/
private theorem after1_2_v15 :
    StableHlo.after hostOps1_2 W (Proc.devRef .tc main_v15)
      = truncf .bf16 (Host.divf (W (Proc.devRef .tc main_v8) : Vec F S1000x256 .f32)
          (broadcastInDim S1000x256 ![0, 1] bcast_S1000x1_S1000x256_0_1
            (broadcastInDim S1000x1 ![0] bcast_S1000_S1000x1_0
              (maximumf (W (Proc.devRef .tc main_v9) : Vec F S1000 .f32)
                (broadcastInDim S1000 ![] bcast_S_S1000 (constant S_ .f32 0x322BCC77#32)))))) bitsLt_bf16_f32 := by
  after_results

end Stretches

variable (m : (ℓ : Loc nD τ sig) → Buf (Elt F) ℓ) (ρ : Dev nD → PrngReg)

/-- The result buffer after the last host stretch: the per-core totals added and divided by the row count. -/
theorem W6_v18 (c : Dev nD) :
    W6 m ρ c (Proc.devRef .tc main_v18)
      = Host.divf (Host.reduceAdd ((dat1 (V4 m ρ) c).arrAt 3 cfg1.N : Vec F S2x1x1 .f32) (constant S_ .f32 0x00000000#32) reducesTo_S2x1x1_S_d0_1_2 h_S_)
          (constant S_ .f32 0x47800000#32) := by
  -- the last stretch's two operations over what the loss kernel left; its output array is `main_v16`
  show StableHlo.after hostOps2 (W5 m ρ c) (Proc.devRef .tc main_v18) = _
  after_results
  rw [show W5 m ρ c (Proc.devRef .tc main_v16) = (dat1 (V4 m ρ) c).arrAt 3 cfg1.N from W5_arr m ρ c 3]

/-- What the loss kernel finds in its third operand: the scaled centers of the arrays the centers kernel left. -/
theorem V4_v15 (c : Dev nD) :
    V4 m ρ c main_v15 = midW (midC ((dat0 (V0 m ρ) c).arrAt 2 cfg0.N : Vec F S2x1000x256 .f32) ((dat0 (V0 m ρ) c).arrAt 3 cfg0.N : Vec F S2x1x1000 .f32)) := by
  -- the centers kernel's two output arrays are `main_v0_0` and `main_v0_1`
  have h0 : W1 m ρ c (Proc.devRef .tc main_v0_0) = (dat0 (V0 m ρ) c).arrAt 2 cfg0.N := W1_arr m ρ c 2
  have h1 : W1 m ρ c (Proc.devRef .tc main_v0_1) = (dat0 (V0 m ρ) c).arrAt 3 cfg0.N := W1_arr m ρ c 3
  -- the centers, after the first stretch and still after the called norm
  have h8 : W3 m ρ c (Proc.devRef .tc main_v8)
      = midC ((dat0 (V0 m ρ) c).arrAt 2 cfg0.N : Vec F S2x1000x256 .f32) ((dat0 (V0 m ρ) c).arrAt 3 cfg0.N : Vec F S2x1x1000 .f32) := by
    refine (after1_1_v8 (W2 m ρ c)).trans ?_
    refine (after1_v8 (W1 m ρ c)).trans ?_
    rw [h0, h1]
  -- their rows' norms
  have h9 : W3 m ρ c (Proc.devRef .tc main_v9)
      = Host.sqrt (Host.reduceAdd (mulf (W3 m ρ c (Proc.devRef .tc main_v8) : Vec F S1000x256 .f32) (W3 m ρ c (Proc.devRef .tc main_v8) : Vec F S1000x256 .f32))
          (constant S_ .f32 0x00000000#32) reducesTo_S1000x256_S1000_d1 h_S_) := by
    refine (after1_1_v9 (W2 m ρ c)).trans ?_
    rw [← after1_1_v8 (W2 m ρ c)]
  refine (after1_2_v15 (W3 m ρ c)).trans ?_
  rw [h9, h8]
  rfl

/-- Both kernels find the two arguments as launched. -/
theorem V4_arg0 (c : Dev nD) : V4 m ρ c main_arg0 = m ((c : Thread nD τ).loc main_arg0) := by
  -- no operation of the three stretches writes the argument; the centers kernel reads it through an input window
  show StableHlo.after hostOps1_2 (W3 m ρ c) (Proc.devRef .tc main_arg0) = _
  after_results
  exact (W1_arr m ρ c 0).trans (((dat0 (V0 m ρ) c).arrAt_in 0 rfl _).trans (A_eq0 (V0 m ρ) c 0))
theorem V4_arg1 (c : Dev nD) : V4 m ρ c main_arg1 = m ((c : Thread nD τ).loc main_arg1) := by
  show StableHlo.after hostOps1_2 (W3 m ρ c) (Proc.devRef .tc main_arg1) = _
  after_results
  exact (W1_arr m ρ c 1).trans (((dat0 (V0 m ρ) c).arrAt_in 1 rfl _).trans (A_eq0 (V0 m ρ) c 1))
theorem V0_arg0 (c : Dev nD) : V0 m ρ c main_arg0 = m ((c : Thread nD τ).loc main_arg0) := rfl
theorem V0_arg1 (c : Dev nD) : V0 m ρ c main_arg1 = m ((c : Thread nD τ).loc main_arg1) := rfl

end Cert.KernelIdeal.KV

end
-- ==== Proof.KPieces.lean ====
import proofs.«431141_j78185584657074_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

/-- The zero offsets of a rank-3 block are the constant zero function. -/
private theorem hz3 : (![0, 0, 0] : Fin 3 → Nat) = fun _ => 0 := funext fun a => by fin_cases a <;> rfl
/-- The zero offsets of a rank-2 block are the constant zero function. -/
private theorem hz2 : (![0, 0] : Fin 2 → Nat) = fun _ => 0 := funext fun a => by fin_cases a <;> rfl
/-- The zero offset of a rank-1 block is the constant zero function. -/
private theorem hz1 : (![0] : Fin 1 → Nat) = fun _ => 0 := funext fun a => by fin_cases a <;> rfl

/-! What each control case of the two kernel bodies leaves in its output blocks, as the body's arithmetic
    (the payload terms) of the input blocks and, where the block is carried, of what it held before. -/

/-- Centers kernel, first point of a core's run: the class sums block is the zero block plus this point's product. -/
theorem out0_A_2_eq (c : Dev nD) (i : grid0.Coords) (a2 : Memref sig .tc .vmem S2048x256 .f32) (h2 : a2.IsWhole) (a3 : Memref sig .tc .vmem S2048 .i32) (h3 : a3.IsWhole) (a4 : Memref sig .tc .vmem S1x1000x256 .f32) (h4 : a4.IsWhole) (a5 : Memref sig .tc .vmem S1x1x1000 .f32) (h5 : a5.IsWhole) (hc : cond0_0 i) (x0 : Vec F S2048x256 .f32) (x1 : Vec F S2048 .i32) :
    out0_A_2 c i a2 h2 a3 h3 a4 h4 a5 h5 hc x0 x1 = k0_pay5 x0 x1 k0_pay2 := by
  -- two whole-block stores: the later one decides every index, and its carried operand reads the earlier one back; each load of a whole buffer at zero offsets is the buffer's contents
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1000x256) hz3, View.readCov_unit_zero (S := S1x1000x256) _ hz3]
  simp only [View.readAt_eq_ld, h2.read_unread, h3.read_unread, h4.read_unread, h5.read_unread,
    View.ld_unit_zero (S := S2048x256) hz2, View.ld_unit_zero (S := S2048) hz1,
    View.ld_unit_zero (S := S1x1000x256) hz3, View.ld_unit_zero (S := S1x1x1000) hz3, shapeCast_self]

/-- Centers kernel, first point: the counts block is the zero block plus this point's column sums. -/
theorem out0_A_3_eq (c : Dev nD) (i : grid0.Coords) (a2 : Memref sig .tc .vmem S2048x256 .f32) (h2 : a2.IsWhole) (a3 : Memref sig .tc .vmem S2048 .i32) (h3 : a3.IsWhole) (a4 : Memref sig .tc .vmem S1x1000x256 .f32) (h4 : a4.IsWhole) (a5 : Memref sig .tc .vmem S1x1x1000 .f32) (h5 : a5.IsWhole) (hc : cond0_0 i) (x0 : Vec F S2048x256 .f32) (x1 : Vec F S2048 .i32) :
    out0_A_3 c i a2 h2 a3 h3 a4 h4 a5 h5 hc x0 x1 = k0_pay1 (k0_pay6 x1 k0_pay3) := by
  -- two whole-block stores: the later one decides every index, and its carried operand reads the earlier one back; each load of a whole buffer at zero offsets is the buffer's contents
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x1000) hz3, View.readCov_unit_zero (S := S1x1x1000) _ hz3]
  simp only [View.readAt_eq_ld, h2.read_unread, h3.read_unread, h4.read_unread, h5.read_unread,
    View.ld_unit_zero (S := S2048x256) hz2, View.ld_unit_zero (S := S2048) hz1,
    View.ld_unit_zero (S := S1x1000x256) hz3, View.ld_unit_zero (S := S1x1x1000) hz3, shapeCast_self]

/-- Centers kernel, a later point: the carried sums block plus this point's product. -/
theorem out0_B_2_eq (c : Dev nD) (i : grid0.Coords) (a2 : Memref sig .tc .vmem S2048x256 .f32) (h2 : a2.IsWhole) (a3 : Memref sig .tc .vmem S2048 .i32) (h3 : a3.IsWhole) (a4 : Memref sig .tc .vmem S1x1000x256 .f32) (h4 : a4.IsWhole) (a5 : Memref sig .tc .vmem S1x1x1000 .f32) (h5 : a5.IsWhole) (hc : ¬cond0_0 i) (x0 : Vec F S2048x256 .f32) (x1 : Vec F S2048 .i32)
    (xo2 : Vec F S1x1000x256 .f32) (xo3 : Vec F S1x1x1000 .f32) :
    out0_B_2 c i a2 h2 a3 h3 a4 h4 a5 h5 hc x0 x1 xo2 xo3 = k0_pay5 x0 x1 xo2 := by
  -- one whole-block store decides every index; each load of a whole buffer at zero offsets is the buffer's contents
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S2048x256) hz2, View.ld_unit_zero (S := S2048) hz1,
    View.ld_unit_zero (S := S1x1000x256) hz3, View.ld_unit_zero (S := S1x1x1000) hz3, shapeCast_self]

/-- Centers kernel, a later point: the carried counts block plus this point's column sums. -/
theorem out0_B_3_eq (c : Dev nD) (i : grid0.Coords) (a2 : Memref sig .tc .vmem S2048x256 .f32) (h2 : a2.IsWhole) (a3 : Memref sig .tc .vmem S2048 .i32) (h3 : a3.IsWhole) (a4 : Memref sig .tc .vmem S1x1000x256 .f32) (h4 : a4.IsWhole) (a5 : Memref sig .tc .vmem S1x1x1000 .f32) (h5 : a5.IsWhole) (hc : ¬cond0_0 i) (x0 : Vec F S2048x256 .f32) (x1 : Vec F S2048 .i32)
    (xo2 : Vec F S1x1000x256 .f32) (xo3 : Vec F S1x1x1000 .f32) :
    out0_B_3 c i a2 h2 a3 h3 a4 h4 a5 h5 hc x0 x1 xo2 xo3 = k0_pay1 (k0_pay6 x1 xo3) := by
  -- one whole-block store decides every index; each load of a whole buffer at zero offsets is the buffer's contents
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S2048x256) hz2, View.ld_unit_zero (S := S2048) hz1,
    View.ld_unit_zero (S := S1x1000x256) hz3, View.ld_unit_zero (S := S1x1x1000) hz3, shapeCast_self]

/-- Loss kernel, first point of a core's run: zero plus this point's sum of row losses. -/
theorem out1_A_3_eq (c : Dev nD) (i : grid1.Coords) (a2 : Memref sig .tc .vmem S1024x256 .f32) (h2 : a2.IsWhole) (a3 : Memref sig .tc .vmem S1024 .i32) (h3 : a3.IsWhole) (a4 : Memref sig .tc .vmem S1000x256 .bf16) (h4 : a4.IsWhole) (a5 : Memref sig .tc .vmem S1x1x1 .f32) (h5 : a5.IsWhole) (hc : cond1_0 i) (x0 : Vec F S1024x256 .f32) (x1 : Vec F S1024 .i32) (x2 : Vec F S1000x256 .bf16) :
    out1_A_3 c i a2 h2 a3 h3 a4 h4 a5 h5 hc x0 x1 x2 = k1_pay1 (k1_pay5 x0 x2 x1) (k1_pay6 x0 x2) (k1_pay7 x0 x2 x1) k1_pay2 := by
  -- two whole-block stores: the later one decides every index, and its carried operand reads the earlier one back; each load of a whole buffer at zero offsets is the buffer's contents
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread,
    View.ld_unit_zero (S := S1024x256) hz2, View.ld_unit_zero (S := S1024) hz1,
    View.ld_unit_zero (S := S1000x256) hz2, View.ld_unit_zero (S := S1x1x1) hz3, shapeCast_self]

/-- Loss kernel, a later point: the carried total plus this point's sum of row losses. -/
theorem out1_B_3_eq (c : Dev nD) (i : grid1.Coords) (a2 : Memref sig .tc .vmem S1024x256 .f32) (h2 : a2.IsWhole) (a3 : Memref sig .tc .vmem S1024 .i32) (h3 : a3.IsWhole) (a4 : Memref sig .tc .vmem S1000x256 .bf16) (h4 : a4.IsWhole) (a5 : Memref sig .tc .vmem S1x1x1 .f32) (h5 : a5.IsWhole) (hc : ¬cond1_0 i) (x0 : Vec F S1024x256 .f32) (x1 : Vec F S1024 .i32) (x2 : Vec F S1000x256 .bf16)
    (xo3 : Vec F S1x1x1 .f32) :
    out1_B_3 c i a2 h2 a3 h3 a4 h4 a5 h5 hc x0 x1 x2 xo3 = k1_pay1 (k1_pay5 x0 x2 x1) (k1_pay6 x0 x2) (k1_pay7 x0 x2 x1) xo3 := by
  -- one whole-block store decides every index; each load of a whole buffer at zero offsets is the buffer's contents
  unfold out1_B_3
  rw [View.read_writes_eq_canon _ _ _ (cover1_B_3 c i a2 h2 a3 h3 a4 h4 a5 h5 hc x0 x1 x2 xo3)]
  unfold kernelRun1_B
  dsimp only
  sl_unfold_words
  rw [View.canon_unit_zero hz3]
  simp only [View.readAt_eq_ld, h2.read_unread, h3.read_unread, h4.read_unread, h5.read_unread,
    View.ld_unit_zero (S := S1024x256) hz2, View.ld_unit_zero (S := S1024) hz1,
    View.ld_unit_zero (S := S1000x256) hz2, View.ld_unit_zero (S := S1x1x1) hz3, shapeCast_self]

end Cert.KernelIdeal.KV

end
-- ==== Proof.KFold0.lean ====
import proofs.«431141_j78185584657074_2_alg».proof.Proof.KPieces
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable {F : FTy → Type} [FloatOps F]
variable (V : (c : Dev nD) → (b : Ref sig .tc) → Buf (Elt F) ((c : Thread nD τ).loc b))

/-! The centers kernel's two carried outputs as folds over a core's run of sixteen points, and the arrays the
    region leaves: block `cc` of each is the fold over points `16 cc … 16 cc + 15`. -/

/-- Point t's block of embeddings rows and of labels, at their literal types. -/
abbrev xb0 (c : Dev nD) (t : Fin cfg0.N) : Vec F S2048x256 .f32 := iblk0 V c 0 t
abbrev lb0 (c : Dev nD) (t : Fin cfg0.N) : Vec F S2048 .i32 := iblk0 V c 1 t

/-- The sums block after a run's first point, and the step at a later point. -/
def a0_2 (c : Dev nD) : (n : ℕ) → n < cfg0.N → Vec F S1x1000x256 .f32 :=
  fun n h => k0_pay5 (xb0 V c ⟨n, h⟩) (lb0 V c ⟨n, h⟩) k0_pay2
def g0_2 (c : Dev nD) : (n : ℕ) → n < cfg0.N → Vec F S1x1000x256 .f32 → Vec F S1x1000x256 .f32 :=
  fun n h acc => k0_pay5 (xb0 V c ⟨n, h⟩) (lb0 V c ⟨n, h⟩) acc
/-- The counts block after a run's first point, and the step at a later point. -/
def a0_3 (c : Dev nD) : (n : ℕ) → n < cfg0.N → Vec F S1x1x1000 .f32 :=
  fun n h => k0_pay1 (k0_pay6 (lb0 V c ⟨n, h⟩) k0_pay3)
def g0_3 (c : Dev nD) : (n : ℕ) → n < cfg0.N → Vec F S1x1x1000 .f32 → Vec F S1x1x1000 .f32 :=
  fun n h acc => k0_pay1 (k0_pay6 (lb0 V c ⟨n, h⟩) acc)

theorem pt0_lt (cc : Fin 2) : 16 * cc.val + 15 < cfg0.N := by
  have : cfg0.N = 32 := N_0
  omega

/-- After point t the sums block is the fold over the run that t lies in, up to t. -/
theorem outs0_2 (c : Dev nD) (t : ℕ) (ht : t < cfg0.N) (h' : 16 * (t / 16) + t % 16 < cfg0.N) :
    (outsAt0 V c t ht).1 = Pipeline.accAt (a0_2 V c) (g0_2 V c) (16 * (t / 16)) (t % 16) h' := by
  refine Pipeline.eq_accAt_of_mod (fun n h => (outsAt0 V c n h).1) 16 (a0_2 V c) (g0_2 V c) ?_ ?_ (by decide) t ht h'
  · intro n h hn
    show (outsAt0 V c n h).1 = k0_pay5 (xb0 V c ⟨n, h⟩) (lb0 V c ⟨n, h⟩) k0_pay2
    rw [outsAt0_A V c ⟨n, h⟩ hn]
    dsimp only
    exact out0_A_2_eq c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr hn) (iblk0 V c 0 ⟨n, h⟩) (iblk0 V c 1 ⟨n, h⟩)
  · intro n h hn
    show (outsAt0 V c (n + 1) h).1 = k0_pay5 (xb0 V c ⟨n + 1, h⟩) (lb0 V c ⟨n + 1, h⟩) (outsAt0 V c n (Nat.lt_of_succ_lt h)).1
    rw [outsAt0_B V c ⟨n + 1, h⟩ hn]
    dsimp only
    exact out0_B_2_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => hn ((hcond0_0 ⟨n + 1, h⟩).mp hh)) (iblk0 V c 0 ⟨n + 1, h⟩) (iblk0 V c 1 ⟨n + 1, h⟩) (outsAt0 V c n (Nat.lt_of_succ_lt h)).1 (outsAt0 V c n (Nat.lt_of_succ_lt h)).2

theorem outs0_3 (c : Dev nD) (t : ℕ) (ht : t < cfg0.N) (h' : 16 * (t / 16) + t % 16 < cfg0.N) :
    (outsAt0 V c t ht).2 = Pipeline.accAt (a0_3 V c) (g0_3 V c) (16 * (t / 16)) (t % 16) h' := by
  refine Pipeline.eq_accAt_of_mod (fun n h => (outsAt0 V c n h).2) 16 (a0_3 V c) (g0_3 V c) ?_ ?_ (by decide) t ht h'
  · intro n h hn
    show (outsAt0 V c n h).2 = k0_pay1 (k0_pay6 (lb0 V c ⟨n, h⟩) k0_pay3)
    rw [outsAt0_A V c ⟨n, h⟩ hn]
    dsimp only
    exact out0_A_3_eq c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr hn) (iblk0 V c 0 ⟨n, h⟩) (iblk0 V c 1 ⟨n, h⟩)
  · intro n h hn
    show (outsAt0 V c (n + 1) h).2 = k0_pay1 (k0_pay6 (lb0 V c ⟨n + 1, h⟩) (outsAt0 V c n (Nat.lt_of_succ_lt h)).2)
    rw [outsAt0_B V c ⟨n + 1, h⟩ hn]
    dsimp only
    exact out0_B_3_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => hn ((hcond0_0 ⟨n + 1, h⟩).mp hh)) (iblk0 V c 0 ⟨n + 1, h⟩) (iblk0 V c 1 ⟨n + 1, h⟩) (outsAt0 V c n (Nat.lt_of_succ_lt h)).1 (outsAt0 V c n (Nat.lt_of_succ_lt h)).2

/-- Two folds over the same run to the same offset agree, however the run's start and offset are spelt. -/
private theorem accAt_congr {α : Type*} {N : ℕ} (a : (n : ℕ) → n < N → α) (g : (n : ℕ) → n < N → α → α)
    {b b' j j' : ℕ} (hb : b = b') (hj : j = j') (h : b + j < N) (h' : b' + j' < N) :
    Pipeline.accAt a g b j h = Pipeline.accAt a g b' j' h' := by
  subst hb hj; rfl

/-- The index maps of the two output windows: point t writes block (t / 16, 0, 0). -/
theorem idx0_2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem idx0_3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)

/-- What the region leaves in the [2, 1000, 256] array of per-core class sums. -/
def G0_2 (c : Dev nD) : Vec F S2x1000x256 .f32 :=
  fun i => Pipeline.accAt (a0_2 V c) (g0_2 V c) (16 * (i 0).val) 15 (pt0_lt (i 0)) (ix3 0 (i 1) (i 2))

/-- What the region leaves in the [2, 1, 1000] array of per-core class counts. -/
def G0_3 (c : Dev nD) : Vec F S2x1x1000 .f32 :=
  fun i => Pipeline.accAt (a0_3 V c) (g0_3 V c) (16 * (i 0).val) 15 (pt0_lt (i 0)) (ix3 0 0 (i 2))

/-- What a flushing point writes back of the sums is its block of G0_2: the point closes its run, and its
    block's leading coordinate is the run's number. -/
theorem flushed0_2 (c : Dev nD) (t : Fin cfg0.N) (hf : (cfg0.win 2).flush t = true) :
    (dat0 V c).flushed 2 t = ((cfg0.win 2).blk t).view.read (Elt F) (G0_2 V c) := by
  have hN : cfg0.N = 32 := N_0
  have h15 : t.val % 16 = 15 := (flush0_2 t).mp hf
  have ht : t.val < 32 := lt_of_lt_of_eq t.isLt hN
  have h' : 16 * (t.val / 16) + t.val % 16 < cfg0.N := lt_of_lt_of_eq (by omega : 16 * (t.val / 16) + t.val % 16 < 32) hN.symm
  obtain ⟨e0, e1, e2⟩ := idx0_2 t
  show (cfg0.win 2).cut (grid0.coords t) ((dat0 V c).after 2 t) = _
  rw [after0_2, outs0_2 V c t.val t.isLt h']
  funext y
  have hy0 : (y 0).val = 0 := by have : (y 0).val < 1 := (y 0).isLt; omega
  have hy1 : (y 1).val < 1000 := (y 1).isLt
  have hy2 : (y 2).val < 256 := (y 2).isLt
  have hb : ((((cfg0.win 2).blk t).view.emb y) 0).val = t.val / 16 := by
    show win0_2.index t 0 * 1 + 1 * (y 0).val = _
    rw [e0, hy0]; omega
  have hidx : win0_2.xinj (grid0.coords t) y
      = ix3 0 ((((cfg0.win 2).blk t).view.emb y) 1) ((((cfg0.win 2).blk t).view.emb y) 2) := by
    funext a; apply Fin.ext
    match a with
    | ⟨0, _⟩ => exact hy0
    | ⟨1, _⟩ => show (y 1).val = win0_2.index t 1 * 1000 + 1 * (y 1).val; rw [e1]; omega
    | ⟨2, _⟩ => show (y 2).val = win0_2.index t 2 * 256 + 1 * (y 2).val; rw [e2]; omega
  show Pipeline.accAt (a0_2 V c) (g0_2 V c) (16 * (t.val / 16)) (t.val % 16) h' (win0_2.xinj (grid0.coords t) y)
    = Pipeline.accAt (a0_2 V c) (g0_2 V c) (16 * ((((cfg0.win 2).blk t).view.emb y) 0).val) 15 (pt0_lt _)
        (ix3 0 ((((cfg0.win 2).blk t).view.emb y) 1) ((((cfg0.win 2).blk t).view.emb y) 2))
  rw [hidx]
  exact congrFun (accAt_congr _ _ (by rw [hb]) h15 _ _) _

/-- What a flushing point writes back of the counts is its block of G0_3: the point closes its run, and its
    block's leading coordinate is the run's number. -/
theorem flushed0_3 (c : Dev nD) (t : Fin cfg0.N) (hf : (cfg0.win 3).flush t = true) :
    (dat0 V c).flushed 3 t = ((cfg0.win 3).blk t).view.read (Elt F) (G0_3 V c) := by
  have hN : cfg0.N = 32 := N_0
  have h15 : t.val % 16 = 15 := (flush0_3 t).mp hf
  have ht : t.val < 32 := lt_of_lt_of_eq t.isLt hN
  have h' : 16 * (t.val / 16) + t.val % 16 < cfg0.N := lt_of_lt_of_eq (by omega : 16 * (t.val / 16) + t.val % 16 < 32) hN.symm
  obtain ⟨e0, e1, e2⟩ := idx0_3 t
  show (cfg0.win 3).cut (grid0.coords t) ((dat0 V c).after 3 t) = _
  rw [after0_3, outs0_3 V c t.val t.isLt h']
  funext y
  have hy0 : (y 0).val = 0 := by have : (y 0).val < 1 := (y 0).isLt; omega
  have hy1 : (y 1).val = 0 := by have : (y 1).val < 1 := (y 1).isLt; omega
  have hy2 : (y 2).val < 1000 := (y 2).isLt
  have hb : ((((cfg0.win 3).blk t).view.emb y) 0).val = t.val / 16 := by
    show win0_3.index t 0 * 1 + 1 * (y 0).val = _
    rw [e0, hy0]; omega
  have hidx : win0_3.xinj (grid0.coords t) y = ix3 0 0 ((((cfg0.win 3).blk t).view.emb y) 2) := by
    funext a; apply Fin.ext
    match a with
    | ⟨0, _⟩ => exact hy0
    | ⟨1, _⟩ => exact hy1
    | ⟨2, _⟩ => show (y 2).val = win0_3.index t 2 * 1000 + 1 * (y 2).val; rw [e2]; omega
  show Pipeline.accAt (a0_3 V c) (g0_3 V c) (16 * (t.val / 16)) (t.val % 16) h' (win0_3.xinj (grid0.coords t) y)
    = Pipeline.accAt (a0_3 V c) (g0_3 V c) (16 * ((((cfg0.win 3).blk t).view.emb y) 0).val) 15 (pt0_lt _)
        (ix3 0 0 ((((cfg0.win 3).blk t).view.emb y) 2))
  rw [hidx]
  exact congrFun (accAt_congr _ _ (by rw [hb]) h15 _ _) _

theorem arr0_2 (c : Dev nD) : ((dat0 V c).arrAt 2 cfg0.N : Vec F S2x1000x256 .f32) = G0_2 V c := by
  refine (dat0 V c).arrAt_eq_of_cover 2 (G0_2 V c) (flushed0_2 V c) fun i => ?_
  have hN : cfg0.N = 32 := N_0
  have hi0 : (i 0 : ℕ) < 2 := (i 0).isLt
  have hi1 : (i 1 : ℕ) < 1000 := (i 1).isLt
  have hi2 : (i 2 : ℕ) < 256 := (i 2).isLt
  have hlt : 16 * (i 0 : ℕ) + 15 < cfg0.N := lt_of_lt_of_eq (by omega : 16 * (i 0 : ℕ) + 15 < 32) hN.symm
  obtain ⟨e0, e1, e2⟩ := idx0_2 ⟨16 * (i 0 : ℕ) + 15, hlt⟩
  have e0' : win0_2.index ⟨16 * (i 0 : ℕ) + 15, hlt⟩ 0 = (i 0 : ℕ) := by rw [e0]; show (16 * (i 0 : ℕ) + 15) / 16 = _; omega
  refine ⟨⟨16 * (i 0 : ℕ) + 15, hlt⟩, (flush0_2 _).mpr (by show (16 * (i 0 : ℕ) + 15) % 16 = 15; omega), ?_⟩
  show i ∈ ((View.whole main_v0_0).slice (win0_2.rect ⟨16 * (i 0 : ℕ) + 15, hlt⟩)).set
  rw [View.set_slice_whole, Rect.mem_set_unit]
  intro a
  match a with
  | ⟨0, _⟩ =>
    show win0_2.index ⟨16 * (i 0 : ℕ) + 15, hlt⟩ 0 * 1 ≤ (i 0 : ℕ) ∧ (i 0 : ℕ) < win0_2.index ⟨16 * (i 0 : ℕ) + 15, hlt⟩ 0 * 1 + 1
    rw [e0']; omega
  | ⟨1, _⟩ =>
    show win0_2.index ⟨16 * (i 0 : ℕ) + 15, hlt⟩ 1 * 1000 ≤ (i 1 : ℕ) ∧ (i 1 : ℕ) < win0_2.index ⟨16 * (i 0 : ℕ) + 15, hlt⟩ 1 * 1000 + 1000
    rw [e1]; omega
  | ⟨2, _⟩ =>
    show win0_2.index ⟨16 * (i 0 : ℕ) + 15, hlt⟩ 2 * 256 ≤ (i 2 : ℕ) ∧ (i 2 : ℕ) < win0_2.index ⟨16 * (i 0 : ℕ) + 15, hlt⟩ 2 * 256 + 256
    rw [e2]; omega

theorem arr0_3 (c : Dev nD) : ((dat0 V c).arrAt 3 cfg0.N : Vec F S2x1x1000 .f32) = G0_3 V c := by
  refine (dat0 V c).arrAt_eq_of_cover 3 (G0_3 V c) (flushed0_3 V c) fun i => ?_
  have hN : cfg0.N = 32 := N_0
  have hi0 : (i 0 : ℕ) < 2 := (i 0).isLt
  have hi1 : (i 1 : ℕ) < 1 := (i 1).isLt
  have hi2 : (i 2 : ℕ) < 1000 := (i 2).isLt
  have hlt : 16 * (i 0 : ℕ) + 15 < cfg0.N := lt_of_lt_of_eq (by omega : 16 * (i 0 : ℕ) + 15 < 32) hN.symm
  obtain ⟨e0, e1, e2⟩ := idx0_3 ⟨16 * (i 0 : ℕ) + 15, hlt⟩
  have e0' : win0_3.index ⟨16 * (i 0 : ℕ) + 15, hlt⟩ 0 = (i 0 : ℕ) := by rw [e0]; show (16 * (i 0 : ℕ) + 15) / 16 = _; omega
  refine ⟨⟨16 * (i 0 : ℕ) + 15, hlt⟩, (flush0_3 _).mpr (by show (16 * (i 0 : ℕ) + 15) % 16 = 15; omega), ?_⟩
  show i ∈ ((View.whole main_v0_1).slice (win0_3.rect ⟨16 * (i 0 : ℕ) + 15, hlt⟩)).set
  rw [View.set_slice_whole, Rect.mem_set_unit]
  intro a
  match a with
  | ⟨0, _⟩ =>
    show win0_3.index ⟨16 * (i 0 : ℕ) + 15, hlt⟩ 0 * 1 ≤ (i 0 : ℕ) ∧ (i 0 : ℕ) < win0_3.index ⟨16 * (i 0 : ℕ) + 15, hlt⟩ 0 * 1 + 1
    rw [e0']; omega
  | ⟨1, _⟩ =>
    show win0_3.index ⟨16 * (i 0 : ℕ) + 15, hlt⟩ 1 * 1 ≤ (i 1 : ℕ) ∧ (i 1 : ℕ) < win0_3.index ⟨16 * (i 0 : ℕ) + 15, hlt⟩ 1 * 1 + 1
    rw [e1]; omega
  | ⟨2, _⟩ =>
    show win0_3.index ⟨16 * (i 0 : ℕ) + 15, hlt⟩ 2 * 1000 ≤ (i 2 : ℕ) ∧ (i 2 : ℕ) < win0_3.index ⟨16 * (i 0 : ℕ) + 15, hlt⟩ 2 * 1000 + 1000
    rw [e2]; omega

end Cert.KernelIdeal.KV

end
-- ==== Proof.KFold1.lean ====
import proofs.«431141_j78185584657074_2_alg».proof.Proof.KPieces
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable {F : FTy → Type} [FloatOps F]
variable (V : (c : Dev nD) → (b : Ref sig .tc) → Buf (Elt F) ((c : Thread nD τ).loc b))

/-! The loss kernel's carried output as a fold over a core's run of thirty-two points, and the array the region
    leaves: entry `cc` is the fold over points `32 cc … 32 cc + 31`. -/

/-- Point t's block of embeddings rows and of labels, and the (whole) scaled centers, at their literal types. -/
abbrev xb1 (c : Dev nD) (t : Fin cfg1.N) : Vec F S1024x256 .f32 := iblk1 V c 0 t
abbrev lb1 (c : Dev nD) (t : Fin cfg1.N) : Vec F S1024 .i32 := iblk1 V c 1 t
abbrev wb1 (c : Dev nD) (t : Fin cfg1.N) : Vec F S1000x256 .bf16 := iblk1 V c 2 t

/-- The total after a run's first point, and the step at a later point. -/
def a1_3 (c : Dev nD) : (n : ℕ) → n < cfg1.N → Vec F S1x1x1 .f32 :=
  fun n h => k1_pay1 (k1_pay5 (xb1 V c ⟨n, h⟩) (wb1 V c ⟨n, h⟩) (lb1 V c ⟨n, h⟩)) (k1_pay6 (xb1 V c ⟨n, h⟩) (wb1 V c ⟨n, h⟩))
    (k1_pay7 (xb1 V c ⟨n, h⟩) (wb1 V c ⟨n, h⟩) (lb1 V c ⟨n, h⟩)) k1_pay2
def g1_3 (c : Dev nD) : (n : ℕ) → n < cfg1.N → Vec F S1x1x1 .f32 → Vec F S1x1x1 .f32 :=
  fun n h acc => k1_pay1 (k1_pay5 (xb1 V c ⟨n, h⟩) (wb1 V c ⟨n, h⟩) (lb1 V c ⟨n, h⟩)) (k1_pay6 (xb1 V c ⟨n, h⟩) (wb1 V c ⟨n, h⟩))
    (k1_pay7 (xb1 V c ⟨n, h⟩) (wb1 V c ⟨n, h⟩) (lb1 V c ⟨n, h⟩)) acc

theorem pt1_lt (cc : Fin 2) : 32 * cc.val + 31 < cfg1.N := by
  have : cfg1.N = 64 := N_1
  omega

/-- After point t the total is the fold over the run that t lies in, up to t. -/
theorem outs1_3 (c : Dev nD) (t : ℕ) (ht : t < cfg1.N) (h' : 32 * (t / 32) + t % 32 < cfg1.N) :
    outsAt1 V c t ht = Pipeline.accAt (a1_3 V c) (g1_3 V c) (32 * (t / 32)) (t % 32) h' := by
  refine Pipeline.eq_accAt_of_mod (outsAt1 V c) 32 (a1_3 V c) (g1_3 V c) ?_ ?_ (by decide) t ht h'
  · -- a run's first point: the zero block plus that point's sum
    intro n h h0
    refine (outsAt1_A V c ⟨n, h⟩ h0).trans ?_
    exact out1_A_3_eq c (grid1.coords ⟨n, h⟩) (ms1_0 ⟨n, h⟩) (hs1_0 ⟨n, h⟩) (ms1_1 ⟨n, h⟩) (hs1_1 ⟨n, h⟩)
      (ms1_2 ⟨n, h⟩) (hs1_2 ⟨n, h⟩) (ms1_3 ⟨n, h⟩) (hs1_3 ⟨n, h⟩) ((hcond1_0 ⟨n, h⟩).mpr h0)
      (iblk1 V c 0 ⟨n, h⟩) (iblk1 V c 1 ⟨n, h⟩) (iblk1 V c 2 ⟨n, h⟩)
  · -- a later point: what the point before left plus this point's sum
    intro n h h0
    refine (outsAt1_B V c ⟨n + 1, h⟩ h0).trans ?_
    exact out1_B_3_eq c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (ms1_3 ⟨n + 1, h⟩) (hs1_3 ⟨n + 1, h⟩) (fun hc => h0 ((hcond1_0 ⟨n + 1, h⟩).mp hc))
      (iblk1 V c 0 ⟨n + 1, h⟩) (iblk1 V c 1 ⟨n + 1, h⟩) (iblk1 V c 2 ⟨n + 1, h⟩) (outsAt1 V c n (Nat.lt_of_succ_lt h))

/-- A fold depends on its first point and its length through their values only. -/
theorem accAt1_congr (c : Dev nD) {b b' e e' : ℕ} (hb : b = b') (he : e = e') (h : b + e < cfg1.N) (h' : b' + e' < cfg1.N) :
    Pipeline.accAt (a1_3 V c) (g1_3 V c) b e h = Pipeline.accAt (a1_3 V c) (g1_3 V c) b' e' h' := by
  subst hb; subst he; rfl

/-- A block of one scalar has one index. -/
theorem idx1x1x1_eq (j j' : S1x1x1.Idx) : j = j' := funext fun a => by
  match a with
  | ⟨0, _⟩ => exact Subsingleton.elim (α := Fin 1) _ _
  | ⟨1, _⟩ => exact Subsingleton.elim (α := Fin 1) _ _
  | ⟨2, _⟩ => exact Subsingleton.elim (α := Fin 1) _ _

/-- The output window's index map, decided over the grid: point t's block is block (t / 32, 0, 0). -/
theorem index1_3 : ∀ t : Fin cfg1.N, win1_3.index t (0 : Fin 3) = t.val / 32 ∧ win1_3.index t (1 : Fin 3) = 0
    ∧ win1_3.index t (2 : Fin 3) = 0 :=
  (by decide +kernel : ∀ t : Fin grid1.N, _)

/-- What the region leaves in the [2, 1, 1] array of per-core totals. -/
def G1_3 (c : Dev nD) : Vec F S2x1x1 .f32 :=
  fun i => Pipeline.accAt (a1_3 V c) (g1_3 V c) (32 * (i 0).val) 31 (pt1_lt (i 0)) (ix3 0 0 0)

/-- What a writing-back point writes back is its block of `G1_3`: the run's whole fold, at entry t / 32. -/
theorem flushed1_3 (c : Dev nD) (t : Fin cfg1.N) (hf : (cfg1.win 3).flush t = true) :
    (dat1 V c).flushed 3 t = ((cfg1.win 3).blk t).view.read (Elt F) (G1_3 V c) := by
  have hN : cfg1.N = 64 := N_1
  have ht : t.val < 64 := lt_of_lt_of_eq t.isLt hN
  have h31 : t.val % 32 = 31 := (flush1_3 t).mp hf
  show (cfg1.win 3).cut (grid1.coords t) ((dat1 V c).after 3 t) = _
  rw [after1_3, outs1_3 V c t.val t.isLt (by omega)]
  funext j
  show Pipeline.accAt (a1_3 V c) (g1_3 V c) (32 * (t.val / 32)) (t.val % 32) _ ((cfg1.win 3).xinj (grid1.coords t) j)
    = G1_3 V c (((cfg1.win 3).blk t).view.emb j)
  have e0 : ((((cfg1.win 3).blk t).view.emb j) 0).val = t.val / 32 := by
    show win1_3.index t (0 : Fin 3) * 1 + 1 * (j 0).val = _
    have hj : (j 0).val < 1 := (j 0).isLt
    have := (index1_3 t).1
    omega
  have hb : 32 * (t.val / 32) = 32 * ((((cfg1.win 3).blk t).view.emb j) 0).val := by rw [e0]
  exact (congrFun (accAt1_congr V c hb h31 _ (pt1_lt ((((cfg1.win 3).blk t).view.emb j) 0))) _).trans
    (congrArg (Pipeline.accAt (a1_3 V c) (g1_3 V c) _ 31 _) (idx1x1x1_eq _ (ix3 0 0 0)))

theorem arr1_3 (c : Dev nD) : ((dat1 V c).arrAt 3 cfg1.N : Vec F S2x1x1 .f32) = G1_3 V c := by
  refine (dat1 V c).arrAt_eq_of_cover 3 (G1_3 V c) (flushed1_3 V c) fun i => ?_
  -- entry i lies in the block the last point of run i 0 writes back
  have hi : (i 0).val < 2 := (i 0).isLt
  have hi1 : (i 1).val < 1 := (i 1).isLt
  have hi2 : (i 2).val < 1 := (i 2).isLt
  obtain ⟨e0, e1, e2⟩ := index1_3 ⟨32 * (i 0).val + 31, pt1_lt (i 0)⟩
  refine ⟨⟨32 * (i 0).val + 31, pt1_lt (i 0)⟩, (flush1_3 _).mpr (by show (32 * (i 0).val + 31) % 32 = 31; omega), ?_⟩
  show i ∈ ((View.whole main_v16).slice (win1_3.rect ⟨32 * (i 0).val + 31, pt1_lt (i 0)⟩)).set
  rw [View.set_slice_whole, Rect.mem_set_unit]
  intro a
  match a with
  | ⟨0, _⟩ =>
    show win1_3.index ⟨32 * (i 0).val + 31, pt1_lt (i 0)⟩ (0 : Fin 3) * 1 ≤ (i 0).val
      ∧ (i 0).val < win1_3.index ⟨32 * (i 0).val + 31, pt1_lt (i 0)⟩ (0 : Fin 3) * 1 + 1
    rw [e0]; show (32 * (i 0).val + 31) / 32 * 1 ≤ (i 0).val ∧ (i 0).val < (32 * (i 0).val + 31) / 32 * 1 + 1; omega
  | ⟨1, _⟩ =>
    show win1_3.index ⟨32 * (i 0).val + 31, pt1_lt (i 0)⟩ (1 : Fin 3) * 1 ≤ (i 1).val
      ∧ (i 1).val < win1_3.index ⟨32 * (i 0).val + 31, pt1_lt (i 0)⟩ (1 : Fin 3) * 1 + 1
    rw [e1]; omega
  | ⟨2, _⟩ =>
    show win1_3.index ⟨32 * (i 0).val + 31, pt1_lt (i 0)⟩ (2 : Fin 3) * 1 ≤ (i 2).val
      ∧ (i 2).val < win1_3.index ⟨32 * (i 0).val + 31, pt1_lt (i 0)⟩ (2 : Fin 3) * 1 + 1
    rw [e2]; omega

end Cert.KernelIdeal.KV

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.KPay0.lean ====
import proofs.«431141_j78185584657074_2_alg».proof.Proof.Gen.KernelIdeal.Skeleton
import proofs.«431141_j78185584657074_2_alg».proof.Proof.Spec
import proofs.«431141_j78185584657074_2_alg».proof.Proof.LibDotSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx

namespace Cert.KernelIdeal.KV

open Cert.KernelIdeal Cert.KernelIdeal.Gen

/-! The centers kernel's arithmetic read at an index, over the extended reals: one point adds to each entry
    (class j, column k) of the sums block the sum over the point's 2048 rows of indicator times normalized entry,
    and to each entry (class j) of the counts block the number of the point's rows labelled j. -/

/-! ## Casts between a vector, a column and a [1, 1, n] block, and a column laid along the rows

Each cast keeps the row-major position, so it reads the entry with the same free coordinate; the unit coordinates are 0. -/

/-- A vector cast to a column reads its own entry. -/
private theorem shapeCast_a_a1_apply {α : Type} {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    simp only [hu, Nat.mul_one, Nat.add_zero])

/-- A vector cast to a [1, 1, n] block reads its own entry. -/
private theorem shapeCast_a_11a_apply {α : Type} {n : ℕ} (x : (⟨1, ![n]⟩ : Shape).Idx → α)
    (h : (⟨1, ![n]⟩ : Shape).ShapeCasts ⟨3, ![1, 1, n]⟩) (u v : Fin 1) (i : Fin n) :
    shapeCast ⟨3, ![1, 1, n]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * n + i.val
    simp only [hu, hv, Nat.zero_mul, Nat.zero_add, Nat.mul_one])

/-- A [1, 1, n] block cast to a vector reads, at i, the block at (0, 0, i). -/
private theorem shapeCast_11a_a_apply {α : Type} {n : ℕ} (x : (⟨3, ![1, 1, n]⟩ : Shape).Idx → α)
    (h : (⟨3, ![1, 1, n]⟩ : Shape).ShapeCasts ⟨1, ![n]⟩) (i : Fin n) :
    shapeCast ⟨1, ![n]⟩ x h (ix1 i) = x (ix3 (0 : Fin 1) (0 : Fin 1) i) :=
  shapeCast_apply x h _ _ (by
    rw [Shape.rowMajor_val_three, Shape.rowMajor_val_one]
    show (0 * 1 + 0) * n + i.val = i.val
    simp only [Nat.zero_mul, Nat.zero_add])

/-- A column broadcast along the rows reads, at (p, c), row p's one entry. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The zero blocks -/

theorem pay2_apply (i : S1x1000x256.Idx) : k0_pay2 (F := Ideal) i = 0 := by
  obtain ⟨a, b, c, rfl⟩ : ∃ (a : Fin 1) (b : Fin 1000) (c : Fin 256), i = ix3 a b c := ⟨i 0, i 1, i 2, eq_ix3 i⟩
  unfold k0_pay2
  refine (shapeCast_ab_1ab_apply _ _ a b c).trans ?_
  exact Ideal.ofBits_zero_f32

theorem pay3_apply (i : S1x1x1000.Idx) : k0_pay3 (F := Ideal) i = 0 := by
  obtain ⟨a, b, c, rfl⟩ : ∃ (a : Fin 1) (b : Fin 1) (c : Fin 1000), i = ix3 a b c := ⟨i 0, i 1, i 2, eq_ix3 i⟩
  unfold k0_pay3
  refine (shapeCast_a_11a_apply _ _ a b c).trans ?_
  exact Ideal.ofBits_zero_f32

/-! ## The indicator block

Entry (r, j) compares row r's label, laid along the row, with the column number j; the one-bit answer is widened to a
word and read as a signed integer, which is 1 or 0. -/

/-- The widened bit of a comparison of two words, converted, is 1 where they agree and 0 elsewhere. -/
private theorem sitofp_eq_bit (a b : BitVec 32) :
    (FloatOps.sitofp (F := Ideal) .f32 ((IntOp.cmpi .eq a b).setWidth 32) : Ideal .f32) = if a = b then 1 else 0 := by
  show (((((IntOp.cmpi .eq a b).setWidth 32).toInt : ℤ) : ℝ) : EReal) = _
  by_cases h : a = b
  · have e : IntOp.cmpi .eq a b = 1#1 := by simp [IntOp.cmpi, h]
    have t : ((1#1 : BitVec 1).setWidth 32).toInt = 1 := by decide
    rw [e, if_pos h, t]
    norm_num
  · have hb : (a == b) = false := beq_eq_false_iff_ne.mpr h
    have e : IntOp.cmpi .eq a b = 0#1 := by
      show BitVec.ofBool (a == b) = 0#1
      rw [hb]; rfl
    have t : ((0#1 : BitVec 1).setWidth 32).toInt = 0 := by decide
    rw [e, if_neg h, t]
    norm_num

/-- Entry (r, j) of the indicator block: 1 when row r carries label j, else 0. -/
private theorem hotB (x1 : Vec Ideal S2048 .i32) (r : Fin 2048) (j : Fin 1000) :
    k0_pay4 (F := Ideal) x1 (ix2 r j) = Spec.hot x1 r j := by
  have e1 : broadcastTo S2048x1000 (shapeCast S2048x1 x1 shapeCasts_S2048_S2048x1) broadcasts_S2048x1_S2048x1000 (ix2 r j)
      = x1 (ix1 r) :=
    (broadcastTo_a1_ab_apply _ _ r j).trans (shapeCast_a_a1_apply _ _ r 0)
  have e2 : iota .tc S2048x1000 32 [1] iota_S2048x1000_d1_w32 (ix2 r j) = BitVec.ofNat 32 j.val :=
    iota_single_apply .tc S2048x1000 32 1 _ (ix2 r j)
  unfold k0_pay4
  show FloatOps.sitofp (F := Ideal) .f32 ((IntOp.cmpi .eq
      (broadcastTo S2048x1000 (shapeCast S2048x1 x1 shapeCasts_S2048_S2048x1) broadcasts_S2048x1_S2048x1000 (ix2 r j))
      (iota .tc S2048x1000 32 [1] iota_S2048x1000_d1_w32 (ix2 r j))).setWidth 32) = _
  rw [e1, e2]
  exact sitofp_eq_bit _ _

/-! ## Lane sums as sums over one coordinate

A sum along one axis, read at the remaining coordinate, runs over the indices with that coordinate kept and the summed
one free. -/

/-- A [2048, 256] block summed along its columns reads, at row r, the sum of the row. -/
private theorem rowSum_apply (v : FVec Ideal S2048x256 .f32) (hφ : FKind.Formats .f32)
    (hacc : (0x00000000#32 : BitVec 32) = FKind.add.neutral .f32 hφ) (r : Fin 2048) :
    multiReduction .add [1] S2048 v 0x00000000#32 reduces_S2048x256_S2048 hφ hacc (ix1 r) = ∑ k : Fin 256, v (ix2 r k) := by
  refine (Ideal.multiReduction_add_single v 0x00000000#32 reduces_S2048x256_S2048 hφ hacc (ix1 r)).trans ?_
  refine Finset.sum_congr rfl fun k _ => congrArg v ?_
  funext a
  apply Fin.ext
  match a with
  | ⟨0, _⟩ => rfl
  | ⟨1, _⟩ => rfl

/-- A [2048, 1000] block summed along its rows reads, at column j, the sum of the column. -/
private theorem colSum_apply (v : FVec Ideal S2048x1000 .f32) (hφ : FKind.Formats .f32)
    (hacc : (0x00000000#32 : BitVec 32) = FKind.add.neutral .f32 hφ) (j : Fin 1000) :
    multiReduction .add [0] S1000 v 0x00000000#32 reduces_S2048x1000_S1000 hφ hacc (ix1 j) = ∑ r : Fin 2048, v (ix2 r j) := by
  refine (Ideal.multiReduction_add_single v 0x00000000#32 reduces_S2048x1000_S1000 hφ hacc (ix1 j)).trans ?_
  refine Finset.sum_congr rfl fun k _ => congrArg v ?_
  funext a
  apply Fin.ext
  match a with
  | ⟨0, _⟩ => rfl
  | ⟨1, _⟩ => rfl

/-! ## The normalized block

Each row is divided by the larger of its Euclidean norm and the clamp: the row's sum of squares, as a column, its square
root, the maximum with the clamp, laid back along the row, and the quotient. -/

/-- The block of rows, each divided by its clamped Euclidean norm. -/
private def eBlk (x0 : Vec Ideal S2048x256 .f32) : FVec Ideal S2048x256 .f32 :=
  divf x0 (broadcastTo S2048x256
    (maximumf
      (sqrt (shapeCast S2048x1
        (multiReduction .add [1] S2048 (mulf x0 x0) 0x00000000#32 reduces_S2048x256_S2048 (.inl rfl) rfl)
        shapeCasts_S2048_S2048x1))
      (broadcast S2048x1 (Scalar.ofBits .f32 0x2B8CBCCC#32)))
    broadcasts_S2048x1_S2048x256)

/-- Entry (r, k) of the normalized block is the specification's normalized row entry. -/
private theorem eB (x0 : Vec Ideal S2048x256 .f32) (r : Fin 2048) (k : Fin 256) :
    eBlk x0 (ix2 r k) = Spec.e x0 r k := by
  unfold eBlk
  refine (divf_apply _ _ (ix2 r k)).trans ?_
  unfold Spec.e
  refine congrArg (Ideal.div (x0 (ix2 r k))) ?_
  refine (broadcastTo_a1_ab_apply _ _ r k).trans ?_
  refine (maximumf_apply _ _ (ix2 r (0 : Fin 1))).trans ?_
  unfold Spec.nrm
  refine congrArg (fun t => max (Ideal.sqrt t) Spec.eps12) ?_
  refine (shapeCast_a_a1_apply _ _ r 0).trans ?_
  exact rowSum_apply (mulf x0 x0) _ _ r

/-! ## The two accumulating payloads

The sums block gains the product of the indicator block, contracted over its rows, with the normalized block: at
(class j, column k) the sum over the rows r of indicator (r, j) times normalized entry (r, k). The counts block gains
the indicator block's column sums. A change of float format is the identity on the extended reals. -/

theorem pay5_apply (x0 : Vec Ideal S2048x256 .f32) (x1 : Vec Ideal S2048 .i32) (acc : Vec Ideal S1x1000x256 .f32)
    (j : Fin 1000) (k : Fin 256) :
    k0_pay5 (F := Ideal) x0 x1 acc (ix3 0 j k) = acc (ix3 0 j k) + ∑ r : Fin 2048, Spec.hot x1 r j * Spec.e x0 r k := by
  have h : k0_pay5 (F := Ideal) x0 x1 acc
      = shapeCast S1x1000x256
          (addf (shapeCast S1000x256 acc shapeCasts_S1x1000x256_S1000x256)
            (matmul dot_S2048x1000_S2048x256_S1000x256_0_0_1_1_n_n none
              (truncf .bf16 (k0_pay4 x1) bitsLt_bf16_f32) (truncf .bf16 (eBlk x0) bitsLt_bf16_f32)
              (constant S1000x256 .f32 0x00000000#32)))
          shapeCasts_S1000x256_S1x1000x256 := rfl
  rw [h]
  refine (shapeCast_ab_1ab_apply _ _ (0 : Fin 1) j k).trans ?_
  refine (addf_apply _ _ (ix2 j k)).trans ?_
  refine congrArg₂ (· + ·) (shapeCast_1ab_ab_apply _ _ j k) ?_
  refine (Cert.Lib.matmul_cc_apply dot_S2048x1000_S2048x256_S1000x256_0_0_1_1_n_n rfl rfl rfl rfl rfl rfl none
    (truncf .bf16 (k0_pay4 x1) bitsLt_bf16_f32) (truncf .bf16 (eBlk x0) bitsLt_bf16_f32) j k).trans ?_
  refine Finset.sum_congr rfl fun r _ => ?_
  exact congrArg₂ (· * ·) (hotB x1 r j) (eB x0 r k)

theorem pay16_apply (x1 : Vec Ideal S2048 .i32) (acc : Vec Ideal S1x1x1000 .f32) (j : Fin 1000) :
    k0_pay1 (F := Ideal) (k0_pay6 x1 acc) (ix3 0 0 j) = acc (ix3 0 0 j) + ∑ r : Fin 2048, Spec.hot x1 r j := by
  have h : k0_pay1 (F := Ideal) (k0_pay6 x1 acc)
      = shapeCast S1x1x1000
          (addf (shapeCast S1000 acc shapeCasts_S1x1x1000_S1000)
            (multiReduction .add [0] S1000 (k0_pay4 x1) 0x00000000#32 reduces_S2048x1000_S1000 (.inl rfl) rfl))
          shapeCasts_S1000_S1x1x1000 := rfl
  rw [h]
  refine (shapeCast_a_11a_apply _ _ (0 : Fin 1) (0 : Fin 1) j).trans ?_
  refine (addf_apply _ _ (ix1 j)).trans ?_
  refine congrArg₂ (· + ·) (shapeCast_11a_a_apply _ _ j) ?_
  refine (colSum_apply (k0_pay4 x1) _ _ j).trans ?_
  exact Finset.sum_congr rfl fun r _ => hotB x1 r j

end Cert.KernelIdeal.KV

end
-- ==== Proof.KSum0.lean ====
import proofs.«431141_j78185584657074_2_alg».proof.Proof.KFold0
import proofs.«431141_j78185584657074_2_alg».proof.Proof.KPay0
import proofs.«431141_j78185584657074_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (V : (c : Dev nD) → (b : Ref sig .tc) → Buf (Elt Ideal) ((c : Thread nD τ).loc b))

namespace Sum0

/-! ## The blocks the two input windows read -/

/-- The index maps of the embeddings window and of the labels window: point t reads block t. -/
theorem idx_x : ∀ t : Fin cfg0.N, win0_0.index t 0 = t.val ∧ win0_0.index t 1 = 0 :=
  (by decide +kernel : ∀ t : Fin grid0.N, win0_0.index t 0 = t.val ∧ win0_0.index t 1 = 0)

theorem idx_l : ∀ t : Fin cfg0.N, win0_1.index t 0 = t.val :=
  (by decide +kernel : ∀ t : Fin grid0.N, win0_1.index t 0 = t.val)

/-- Row r of point n's block is a row of the array. -/
theorem row_lt (n : ℕ) (hn : n < cfg0.N) (r : Fin 2048) : 2048 * n + r.val < 65536 := by
  have hN : cfg0.N = 32 := N_0
  have := r.isLt
  omega

/-- Point t's block of the embeddings is rows 2048 t … 2048 t + 2047 of the array. -/
theorem xb_apply (c : Dev nD) (t : Fin cfg0.N) (r : Fin 2048) (k : Fin 256) :
    xb0 V c t (ix2 r k) = V c main_arg0 (ix2 ⟨2048 * t.val + r.val, row_lt t.val t.isLt r⟩ k) := by
  unfold xb0 iblk0
  rw [View.read_apply]
  show V c main_arg0 (((cfg0.win 0).blk t).view.emb (ix2 r k)) = V c main_arg0 _
  refine congrArg (V c main_arg0) (funext fun a => Fin.ext ?_)
  have hi := idx_x t
  match a with
  | ⟨0, _⟩ => show win0_0.index t 0 * 2048 + 1 * r.val = 2048 * t.val + r.val; rw [hi.1]; omega
  | ⟨1, _⟩ => show win0_0.index t 1 * 256 + 1 * k.val = k.val; rw [hi.2]; omega

/-- Point t's block of the labels is entries 2048 t … 2048 t + 2047 of the array. -/
theorem lb_apply (c : Dev nD) (t : Fin cfg0.N) (r : Fin 2048) :
    lb0 V c t (ix1 r) = V c main_arg1 (ix1 ⟨2048 * t.val + r.val, row_lt t.val t.isLt r⟩) := by
  unfold lb0 iblk0
  rw [View.read_apply]
  show V c main_arg1 (((cfg0.win 1).blk t).view.emb (ix1 r)) = V c main_arg1 _
  refine congrArg (V c main_arg1) (funext fun a => Fin.ext ?_)
  have hi := idx_l t
  match a with
  | ⟨0, _⟩ => show win0_1.index t 0 * 2048 + 1 * r.val = 2048 * t.val + r.val; rw [hi]; omega

/-- Normalizing a row commutes with taking the block. -/
theorem e_block (c : Dev nD) (t : Fin cfg0.N) (r : Fin 2048) (k : Fin 256) :
    Spec.e (xb0 V c t) r k
      = Spec.e (R := 65536) (V c main_arg0) ⟨2048 * t.val + r.val, row_lt t.val t.isLt r⟩ k := by
  unfold Spec.e Spec.nrm
  simp only [xb_apply]

/-- The label indicator commutes with taking the block. -/
theorem hot_block (c : Dev nD) (t : Fin cfg0.N) (r : Fin 2048) (j : Fin 1000) :
    Spec.hot (lb0 V c t) r j
      = Spec.hot (R := 65536) (V c main_arg1) ⟨2048 * t.val + r.val, row_lt t.val t.isLt r⟩ j := by
  unfold Spec.hot
  rw [lb_apply]

end Sum0

namespace Sum0

/-! ## Regrouping a sum over all rows by cores, points and rows of a block -/

/-- A sum over 65536 consecutive indices, as two cores of sixteen points of 2048 rows each. -/
theorem regroup (f : ℕ → EReal) :
    ∑ cc : Fin 2, ∑ s ∈ Finset.range 16, ∑ r : Fin 2048, f (2048 * (16 * cc.val + s) + r.val)
      = ∑ n : Fin 65536, f n.val := by
  have h1 := Spec.sum_blocks 32 2048 f
  have h2 := Spec.sum_blocks 2 16 (fun t => ∑ r : Fin 2048, f (2048 * t + r.val))
  simp only [Finset.sum_range]
  exact h2.symm.trans h1.symm

end Sum0

namespace Sum0

/-! ## The fold over a core's sixteen points, read at an entry -/

/-- Every index of the one-core sums block names a class and a column. -/
theorem idx_sums (i : S1x1000x256.Idx) : ∃ (j : Fin 1000) (k : Fin 256), i = ix3 0 j k :=
  ⟨i 1, i 2, funext fun a => match a with
    | ⟨0, _⟩ => Subsingleton.elim (α := Fin 1) _ _
    | ⟨1, _⟩ => rfl
    | ⟨2, _⟩ => rfl⟩

/-- Every index of the one-core counts block names a class. -/
theorem idx_counts (i : S1x1x1000.Idx) : ∃ j : Fin 1000, i = ix3 0 0 j :=
  ⟨i 2, funext fun a => match a with
    | ⟨0, _⟩ => Subsingleton.elim (α := Fin 1) _ _
    | ⟨1, _⟩ => Subsingleton.elim (α := Fin 1) _ _
    | ⟨2, _⟩ => rfl⟩

/-- Row n's term of class j's sum in column k, as a function of every natural n. -/
def term2 (c : Dev nD) (j : Fin 1000) (k : Fin 256) (n : ℕ) : EReal :=
  if h : n < 65536 then
    Spec.hot (R := 65536) (V c main_arg1) ⟨n, h⟩ j * Spec.e (R := 65536) (V c main_arg0) ⟨n, h⟩ k
  else 0

/-- Row n's term of class j's count. -/
def term3 (c : Dev nD) (j : Fin 1000) (n : ℕ) : EReal :=
  if h : n < 65536 then Spec.hot (R := 65536) (V c main_arg1) ⟨n, h⟩ j else 0

/-- What point n adds to an entry of the sums block: the terms of its 2048 rows. -/
def add2 (c : Dev nD) (n : ℕ) (i : S1x1000x256.Idx) : EReal :=
  ∑ r : Fin 2048, term2 V c (i 1) (i 2) (2048 * n + r.val)

/-- What point n adds to an entry of the counts block. -/
def add3 (c : Dev nD) (n : ℕ) (i : S1x1x1000.Idx) : EReal :=
  ∑ r : Fin 2048, term3 V c (i 2) (2048 * n + r.val)

/-- One point's step on the sums block, its rows read off the array. -/
theorem pay5_block (c : Dev nD) (n : ℕ) (h : n < cfg0.N) (acc : Vec Ideal S1x1000x256 .f32) (i : S1x1000x256.Idx) :
    k0_pay5 (F := Ideal) (xb0 V c ⟨n, h⟩) (lb0 V c ⟨n, h⟩) acc i = acc i + add2 V c n i := by
  obtain ⟨j, k, rfl⟩ := idx_sums i
  refine (pay5_apply _ _ acc j k).trans ?_
  refine congrArg (acc (ix3 0 j k) + ·) (Finset.sum_congr rfl fun r _ => ?_)
  show _ = term2 V c j k (2048 * n + r.val)
  unfold term2
  rw [dif_pos (row_lt n h r), hot_block, e_block]

/-- One point's step on the counts block. -/
theorem pay16_block (c : Dev nD) (n : ℕ) (h : n < cfg0.N) (acc : Vec Ideal S1x1x1000 .f32) (i : S1x1x1000.Idx) :
    k0_pay1 (F := Ideal) (k0_pay6 (lb0 V c ⟨n, h⟩) acc) i = acc i + add3 V c n i := by
  obtain ⟨j, rfl⟩ := idx_counts i
  refine (pay16_apply _ acc j).trans ?_
  refine congrArg (acc (ix3 0 0 j) + ·) (Finset.sum_congr rfl fun r _ => ?_)
  show _ = term3 V c j (2048 * n + r.val)
  unfold term3
  rw [dif_pos (row_lt n h r), hot_block]

/-- A core's sums block after its sixteen points: the sum of the sixteen points' addends. -/
theorem fold2 (c : Dev nD) (cc : Fin 2) (i : S1x1000x256.Idx) :
    Pipeline.accAt (a0_2 V c) (g0_2 V c) (16 * cc.val) 15 (pt0_lt cc) i
      = 0 + ∑ s ∈ Finset.range (15 + 1), add2 V c (16 * cc.val + s) i :=
  Pipeline.accAt_add_apply (a0_2 V c) (g0_2 V c) (fun _ => 0) (add2 V c) (16 * cc.val) 15
    (fun h i => by unfold a0_2; rw [pay5_block, pay2_apply])
    (fun n h acc i _ _ => by unfold g0_2; exact pay5_block V c n h acc i) 15 le_rfl (pt0_lt cc) i

/-- A core's counts block after its sixteen points. -/
theorem fold3 (c : Dev nD) (cc : Fin 2) (i : S1x1x1000.Idx) :
    Pipeline.accAt (a0_3 V c) (g0_3 V c) (16 * cc.val) 15 (pt0_lt cc) i
      = 0 + ∑ s ∈ Finset.range (15 + 1), add3 V c (16 * cc.val + s) i :=
  Pipeline.accAt_add_apply (a0_3 V c) (g0_3 V c) (fun _ => 0) (add3 V c) (16 * cc.val) 15
    (fun h i => by unfold a0_3; rw [pay16_block, pay3_apply])
    (fun n h acc i _ _ => by unfold g0_3; exact pay16_block V c n h acc i) 15 le_rfl (pt0_lt cc) i

end Sum0

/-! Over the extended reals the two per-core arrays the centers kernel leaves, summed over the cores as @main does,
    are the per-class sums and counts over all 65536 rows: point t reads rows 2048 t … 2048 t + 2047. -/

theorem sums_eq (c : Dev nD) :
    Host.reduceAdd (F := Ideal) (G0_2 V c) (constant S_ .f32 0x00000000#32) reducesTo_S2x1000x256_S1000x256_d0 h_S_
      = Spec.sumsArr (V c main_arg0) (V c main_arg1) := by
  have hG : ∀ (cc : Fin 2) (j : Fin 1000) (k : Fin 256), G0_2 V c (ix3 cc j k)
      = 0 + ∑ s ∈ Finset.range (15 + 1), Sum0.add2 V c (16 * cc.val + s) (ix3 0 j k) :=
    fun cc j k => Sum0.fold2 V c cc (ix3 0 j k)
  have hred : S2x1000x256.Reduces [0] S1000x256 := by decide
  have hL : ∀ (cc : Fin 2) (j : Fin 1000) (k : Fin 256), hred.lift (ix2 j k) cc = ix3 cc j k :=
    fun cc j k => funext fun a => match a with
      | ⟨0, _⟩ => rfl
      | ⟨1, _⟩ => rfl
      | ⟨2, _⟩ => rfl
  funext jj
  obtain ⟨j, k, rfl⟩ : ∃ (j : Fin 1000) (k : Fin 256), jj = ix2 j k := ⟨jj 0, jj 1, eq_ix2 jj⟩
  generalize G0_2 V c = G at hG
  simp only [Host.reduceAdd, Ideal.hostReduceAdd_def]
  rw [Ideal.hostReduceAdd_single reducesTo_S2x1000x256_S1000x256_d0 hred]
  refine Eq.trans (congrArg₂ (· + ·)
    (show constant (F := Ideal) S_ .f32 0x00000000#32 (Shape.Idx.first h_S_) = 0 from Ideal.ofBits_zero_f32)
    (Finset.sum_congr rfl fun cc _ => (congrArg G (hL cc j k)).trans (hG cc j k))) ?_
  simp only [zero_add]
  show ∑ cc : Fin 2, ∑ s ∈ Finset.range 16, ∑ r : Fin 2048,
      Sum0.term2 V c j k (2048 * (16 * cc.val + s) + r.val) = Spec.sums (V c main_arg0) (V c main_arg1) j k
  refine (Sum0.regroup (Sum0.term2 V c j k)).trans ?_
  unfold Spec.sums
  refine Finset.sum_congr rfl fun n _ => ?_
  unfold Sum0.term2
  rw [dif_pos n.isLt]

theorem counts_eq (c : Dev nD) :
    shapeCast S1000 (Host.reduceAdd (F := Ideal) (G0_3 V c) (constant S_ .f32 0x00000000#32) reducesTo_S2x1x1000_S1x1000_d0 h_S_)
        shapeCasts_S1x1000_S1000
      = Spec.countsArr (V c main_arg1) := by
  have hG : ∀ (cc : Fin 2) (j : Fin 1000), G0_3 V c (ix3 cc 0 j)
      = 0 + ∑ s ∈ Finset.range (15 + 1), Sum0.add3 V c (16 * cc.val + s) (ix3 0 0 j) :=
    fun cc j => Sum0.fold3 V c cc (ix3 0 0 j)
  have hred : S2x1x1000.Reduces [0] S1x1000 := by decide
  have hL : ∀ (cc : Fin 2) (j : Fin 1000), hred.lift (ix2 0 j) cc = ix3 cc 0 j :=
    fun cc j => funext fun a => match a with
      | ⟨0, _⟩ => rfl
      | ⟨1, _⟩ => rfl
      | ⟨2, _⟩ => rfl
  funext jj
  obtain ⟨j, rfl⟩ : ∃ j : Fin 1000, jj = ix1 j := ⟨jj 0, eq_ix1 jj⟩
  generalize G0_3 V c = G at hG
  refine (shapeCast_1a_a_apply (a := 1000) _ shapeCasts_S1x1000_S1000 j).trans ?_
  simp only [Host.reduceAdd, Ideal.hostReduceAdd_def]
  rw [Ideal.hostReduceAdd_single reducesTo_S2x1x1000_S1x1000_d0 hred]
  refine Eq.trans (congrArg₂ (· + ·)
    (show constant (F := Ideal) S_ .f32 0x00000000#32 (Shape.Idx.first h_S_) = 0 from Ideal.ofBits_zero_f32)
    (Finset.sum_congr rfl fun cc _ => (congrArg G (hL cc j)).trans (hG cc j))) ?_
  simp only [zero_add]
  show ∑ cc : Fin 2, ∑ s ∈ Finset.range 16, ∑ r : Fin 2048,
      Sum0.term3 V c j (2048 * (16 * cc.val + s) + r.val) = Spec.counts (V c main_arg1) j
  refine (Sum0.regroup (Sum0.term3 V c j)).trans ?_
  unfold Spec.counts
  refine Finset.sum_congr rfl fun n _ => ?_
  unfold Sum0.term3
  rw [dif_pos n.isLt]

end Cert.KernelIdeal.KV

end
-- ==== Proof.KPay1.lean ====
import proofs.«431141_j78185584657074_2_alg».proof.Proof.Gen.KernelIdeal.Skeleton
import proofs.«431141_j78185584657074_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx

/-! ## General readings at an index: a product contracted over both operands' second axes, a row sum, a column -/

namespace Cert.KernelIdeal.KV.P1

variable {M K N : Nat}

/-- The dimension numbers of an [M, K] × [N, K]ᵀ product: each operand is contracted over its second axis. -/
def rr (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

theorem rr_lhs_0 (i : (⟨2, ![M, N]⟩ : Shape).Idx) (q : (rr wf).contr.Idx) : ((rr wf).lhsIdx i q 0).val = (i 0).val := by
  unfold DotDims.lhsIdx
  rw [dif_neg (show ¬(0 : Fin (⟨2, ![M, K]⟩ : Shape).rank) ∈ (rr wf).lhsBatch by simp [rr]),
    dif_pos (show (0 : Fin (⟨2, ![M, K]⟩ : Shape).rank) ∈ (rr wf).lhsNonContracting by simp [rr])]
  rfl
theorem rr_lhs_1 (i : (⟨2, ![M, N]⟩ : Shape).Idx) (q : (rr wf).contr.Idx) :
    ((rr wf).lhsIdx i q 1).val = (q ⟨0, Nat.one_pos⟩).val :=
  (rr wf).lhsIdx_val_of_single rfl i q
theorem rr_rhs_0 (i : (⟨2, ![M, N]⟩ : Shape).Idx) (q : (rr wf).contr.Idx) : ((rr wf).rhsIdx i q 0).val = (i 1).val := by
  unfold DotDims.rhsIdx
  rw [dif_neg (show ¬(0 : Fin (⟨2, ![N, K]⟩ : Shape).rank) ∈ (rr wf).rhsBatch by simp [rr]),
    dif_pos (show (0 : Fin (⟨2, ![N, K]⟩ : Shape).rank) ∈ (rr wf).rhsNonContracting by simp [rr])]
  rfl
theorem rr_rhs_1 (i : (⟨2, ![M, N]⟩ : Shape).Idx) (q : (rr wf).contr.Idx) :
    ((rr wf).rhsIdx i q 1).val = (q ⟨0, Nat.one_pos⟩).val :=
  (rr wf).rhsIdx_val_of_single rfl i q

/-- The contraction sum at (r, c) runs over the pairs (r, k), (c, k). -/
theorem sum_rr {β : Type} [AddCommMonoid β] (f : (⟨2, ![M, K]⟩ : Shape).Idx → (⟨2, ![N, K]⟩ : Shape).Idx → β)
    (r : Fin M) (c : Fin N) :
    ∑ k : (rr wf).contr.Idx, f ((rr wf).lhsIdx (ix2 r c) k) ((rr wf).rhsIdx (ix2 r c) k)
      = ∑ k : Fin K, f (ix2 r k) (ix2 c k) := by
  rw [← Equiv.sum_comp (contrEquiv1 (rr wf) K rfl rfl).symm]
  refine Finset.sum_congr rfl fun k _ => ?_
  have hk := contrEquiv1_symm_val (rr wf) K rfl rfl k
  have el : (rr wf).lhsIdx (ix2 r c) ((contrEquiv1 (rr wf) K rfl rfl).symm k) = ix2 r k := funext fun a => Fin.ext (by
    match a with
    | ⟨0, _⟩ => exact rr_lhs_0 wf _ _
    | ⟨1, _⟩ => exact (rr_lhs_1 wf _ _).trans hk)
  have er : (rr wf).rhsIdx (ix2 r c) ((contrEquiv1 (rr wf) K rfl rfl).symm k) = ix2 c k := funext fun a => Fin.ext (by
    match a with
    | ⟨0, _⟩ => exact rr_rhs_0 wf _ _
    | ⟨1, _⟩ => exact (rr_rhs_1 wf _ _).trans hk)
  rw [el, er]

/-- The same for any record with those axis lists. -/
theorem sum_contr_rr {β : Type} [AddCommMonoid β] (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (f : (⟨2, ![M, K]⟩ : Shape).Idx → (⟨2, ![N, K]⟩ : Shape).Idx → β) (r : Fin M) (c : Fin N) :
    ∑ k : d.contr.Idx, f (d.lhsIdx (ix2 r c) k) (d.rhsIdx (ix2 r c) k) = ∑ k : Fin K, f (ix2 r k) (ix2 c k) := by
  obtain ⟨lc, rc', ln, rn, lb, rb, wf'⟩ := d
  simp only at hlc hrc hln hrn hlb hrb
  subst hlc hrc hln hrn hlb hrb
  exact sum_rr wf' f r c

/-- Such a product into the zero accumulator, at (r, c): the sum over k of A (r, k) · B (c, k). -/
theorem matmul_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    matmul d prec A B (constant ⟨2, ![M, N]⟩ .f32 0x00000000#32) (ix2 r c) = ∑ k : Fin K, A (ix2 r k) * B (ix2 c k) := by
  simp only [matmul]
  rw [Ideal.matmul_constant_zero_apply]
  exact sum_contr_rr d hlc hrc hln hrn hlb hrb (fun a b => A a * B b) r c

/-- The sum of an [M, N] block over its second axis, at row r. -/
theorem rowSum_apply {φ : FTy} (src : FVec Ideal ⟨2, ![M, N]⟩ φ) (acc : BitVec φ.bits)
    (h : Shape.Reduces ⟨2, ![M, N]⟩ [1] ⟨1, ![M]⟩) (hφ : FKind.Formats φ) (hacc : acc = FKind.add.neutral φ hφ) (r : Fin M) :
    multiReduction .add [1] ⟨1, ![M]⟩ src acc h hφ hacc (ix1 r) = ∑ k : Fin N, src (ix2 r k) := by
  refine (Ideal.multiReduction_add_single src acc h hφ hacc (ix1 r)).trans ?_
  refine Finset.sum_congr rfl fun k _ => congrArg src ?_
  funext c
  refine Fin.ext ?_
  match c with
  | ⟨0, _⟩ => rfl
  | ⟨1, _⟩ => rfl

/-- A vector of M entries viewed as a column: at (i, 0) it reads entry i. -/
theorem shapeCast_a_a1_apply {α : Type} (x : (⟨1, ![M]⟩ : Shape).Idx → α)
    (h : (⟨1, ![M]⟩ : Shape).ShapeCasts ⟨2, ![M, 1]⟩) (i : Fin M) (u : Fin 1) :
    shapeCast ⟨2, ![M, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column repeated along N columns: at (p, c) it reads the column's entry p. -/
theorem broadcastTo_a1_ab_apply {α : Type} (v : (⟨2, ![M, 1]⟩ : Shape).Idx → α)
    (h : (⟨2, ![M, 1]⟩ : Shape).Broadcasts ⟨2, ![M, N]⟩) (p : Fin M) (c : Fin N) :
    broadcastTo ⟨2, ![M, N]⟩ v h (ix2 p c) = v (ix2 p (0 : Fin 1)) := by
  refine broadcastTo_apply v h (ix2 p c) (ix2 p (0 : Fin 1)) fun ax => ?_
  match ax with
  | ⟨0, _⟩ =>
    show p.val = if M = 1 then 0 else p.val
    split
    · have := p.isLt; omega
    · rfl
  | ⟨1, _⟩ => rfl

/-- The entries of a [1, M, 1] block are its M middle coordinates … -/
def idxEquiv1a1 : (⟨3, ![1, M, 1]⟩ : Shape).Idx ≃ Fin M where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over the block is the sum over them. -/
theorem sum_idx1a1 {β : Type*} [AddCommMonoid β] (f : (⟨3, ![1, M, 1]⟩ : Shape).Idx → β) :
    ∑ i, f i = ∑ r : Fin M, f (ix3 (0 : Fin 1) r (0 : Fin 1)) := by
  rw [← Equiv.sum_comp (idxEquiv1a1 (M := M)).symm f]
  rfl

end Cert.KernelIdeal.KV.P1

/-! ## The loss kernel's blocks at explicit coordinates -/

namespace Cert.KernelIdeal.KV.P1

open Cert.KernelIdeal Cert.KernelIdeal.Gen

/-- The clamped norm column: at row r, the larger of the root of the row's sum of squares and the small constant. -/
theorem nrm_col (x0 : Vec Ideal S1024x256 .f32) (r : Fin 1024) (u : Fin 1) :
    maximumf (sqrt (shapeCast S1024x1 (multiReduction .add [1] S1024 (mulf x0 x0) 0x00000000#32 reduces_S1024x256_S1024
          (.inl rfl) rfl) shapeCasts_S1024_S1024x1))
        (broadcast S1024x1 (Scalar.ofBits (F := Ideal) .f32 0x2B8CBCCC#32)) (ix2 r u)
      = Spec.nrm x0 r := by
  show max (Ideal.sqrt (shapeCast S1024x1 _ shapeCasts_S1024_S1024x1 (ix2 r u))) (Ideal.ofBits .f32 0x2B8CBCCC#32)
    = max (Ideal.sqrt (∑ k : Fin 256, x0 (ix2 r k) * x0 (ix2 r k))) (Ideal.ofBits .f32 0x2B8CBCCC#32)
  refine congrArg (fun t => max (Ideal.sqrt t) (Ideal.ofBits .f32 0x2B8CBCCC#32)) ?_
  exact (shapeCast_a_a1_apply _ _ r u).trans (rowSum_apply _ _ _ _ _ r)

/-- The widened comparison of a row's label with the column number, as a float: 1 where they agree, else 0. -/
theorem hot_apply (x1 : Vec Ideal S1024 .i32) (r : Fin 1024) (j : Fin 1000) :
    (sitofp (F := Ideal) .f32 (extui 32 (cmpi .eq
        (broadcastTo S1024x1000 (shapeCast S1024x1 x1 shapeCasts_S1024_S1024x1) broadcasts_S1024x1_S1024x1000)
        (iota .tc S1024x1000 32 [1] iota_S1024x1000_d1_w32)) natLt_1_32)) (ix2 r j) = Spec.hot x1 r j := by
  have hb : broadcastTo S1024x1000 (shapeCast S1024x1 x1 shapeCasts_S1024_S1024x1) broadcasts_S1024x1_S1024x1000 (ix2 r j)
      = x1 (ix1 r) :=
    (broadcastTo_a1_ab_apply _ _ r j).trans (shapeCast_a_a1_apply _ _ r 0)
  have hi : iota .tc S1024x1000 32 [1] iota_S1024x1000_d1_w32 (ix2 r j) = BitVec.ofNat 32 j.val :=
    iota_single_apply .tc S1024x1000 32 1 iota_S1024x1000_d1_w32 (ix2 r j)
  show ((((IntOp.cmpi .eq (broadcastTo S1024x1000 _ broadcasts_S1024x1_S1024x1000 (ix2 r j))
      (iota .tc S1024x1000 32 [1] iota_S1024x1000_d1_w32 (ix2 r j))).setWidth 32).toInt : ℝ) : EReal) = _
  rw [hb, hi]
  unfold Spec.hot
  by_cases h : x1 (ix1 r) = BitVec.ofNat 32 j.val
  · rw [if_pos h, h]; simp [IntOp.cmpi]
  · have hf : (x1 (ix1 r) == BitVec.ofNat 32 j.val) = false := beq_eq_false_iff_ne.mpr h
    rw [if_neg h]; simp [IntOp.cmpi, hf]

/-- The similarity block: entry (r, j) is the product of normalized row r with row j of the table. -/
theorem sims_apply (x0 : Vec Ideal S1024x256 .f32) (x2 : Vec Ideal S1000x256 .bf16) (r : Fin 1024) (j : Fin 1000) :
    k1_pay3 (F := Ideal) x0 x2 (ix2 r j) = Spec.simW x0 x2 r j := by
  unfold k1_pay3
  refine (matmul_rr_apply dot_S1024x256_S1000x256_S1024x1000_1_1_0_0_n_n rfl rfl rfl rfl rfl rfl none _ _ r j).trans ?_
  refine Finset.sum_congr rfl fun k _ => ?_
  refine congrArg₂ (· * ·) ?_ (congrFun (shapeCast_self x2 _) (ix2 j k))
  show Ideal.div (x0 (ix2 r k)) (broadcastTo S1024x256 _ broadcasts_S1024x1_S1024x256 (ix2 r k))
    = Ideal.div (x0 (ix2 r k)) (Spec.nrm x0 r)
  exact congrArg (Ideal.div (x0 (ix2 r k))) ((broadcastTo_a1_ab_apply _ _ r k).trans (nrm_col x0 r 0))

end Cert.KernelIdeal.KV.P1

/-! ## The column payloads at a row, and the total -/

namespace Cert.KernelIdeal.KV.P1

open Cert.KernelIdeal Cert.KernelIdeal.Gen

/-- The own-label similarity column: at row r, the row's similarities weighted by the indicator and summed. -/
theorem own_apply (x0 : Vec Ideal S1024x256 .f32) (x2 : Vec Ideal S1000x256 .bf16) (x1 : Vec Ideal S1024 .i32)
    (r : Fin 1024) (u : Fin 1) :
    k1_pay4 (F := Ideal) x0 x2 x1 (ix2 r u) = ∑ j : Fin 1000, Spec.simW x0 x2 r j * Spec.hot x1 r j := by
  unfold k1_pay4
  refine (shapeCast_a_a1_apply _ _ r u).trans ?_
  refine (rowSum_apply _ _ _ _ _ r).trans ?_
  refine Finset.sum_congr rfl fun j _ => ?_
  exact congrArg₂ (· * ·) (sims_apply x0 x2 r j) (hot_apply x1 r j)

/-- The squared distance of the own-label similarity from one. -/
theorem pay5_apply (x0 : Vec Ideal S1024x256 .f32) (x2 : Vec Ideal S1000x256 .bf16) (x1 : Vec Ideal S1024 .i32)
    (r : Fin 1024) (u : Fin 1) :
    k1_pay5 (F := Ideal) x0 x2 x1 (ix2 r u)
      = ((∑ j : Fin 1000, Spec.simW x0 x2 r j * Spec.hot x1 r j) - Spec.one32)
        * ((∑ j : Fin 1000, Spec.simW x0 x2 r j * Spec.hot x1 r j) - Spec.one32) := by
  unfold k1_pay5
  show (k1_pay4 (F := Ideal) x0 x2 x1 (ix2 r u) - Ideal.ofBits .f32 0x3F800000#32)
      * (k1_pay4 (F := Ideal) x0 x2 x1 (ix2 r u) - Ideal.ofBits .f32 0x3F800000#32) = _
  rw [own_apply]
  rfl

/-- The sum over the centers of the squared clamped shortfall of each similarity from one. -/
theorem pay6_apply (x0 : Vec Ideal S1024x256 .f32) (x2 : Vec Ideal S1000x256 .bf16) (r : Fin 1024) (u : Fin 1) :
    k1_pay6 (F := Ideal) x0 x2 (ix2 r u)
      = ∑ j : Fin 1000, max (Spec.one32 - Spec.simW x0 x2 r j) Spec.zero32 * max (Spec.one32 - Spec.simW x0 x2 r j) Spec.zero32 := by
  unfold k1_pay6
  refine (shapeCast_a_a1_apply _ _ r u).trans ?_
  refine (rowSum_apply _ _ _ _ _ r).trans ?_
  refine Finset.sum_congr rfl fun j _ => ?_
  show max (Ideal.ofBits .f32 0x3F800000#32 - k1_pay3 (F := Ideal) x0 x2 (ix2 r j)) (Ideal.ofBits .f32 0x00000000#32)
      * max (Ideal.ofBits .f32 0x3F800000#32 - k1_pay3 (F := Ideal) x0 x2 (ix2 r j)) (Ideal.ofBits .f32 0x00000000#32) = _
  rw [sims_apply]
  rfl

/-- The clamped shortfall of the own-label similarity from one. -/
theorem pay7_apply (x0 : Vec Ideal S1024x256 .f32) (x2 : Vec Ideal S1000x256 .bf16) (x1 : Vec Ideal S1024 .i32)
    (r : Fin 1024) (u : Fin 1) :
    k1_pay7 (F := Ideal) x0 x2 x1 (ix2 r u)
      = max (Spec.one32 - ∑ j : Fin 1000, Spec.simW x0 x2 r j * Spec.hot x1 r j) Spec.zero32 := by
  unfold k1_pay7
  show max (Ideal.ofBits .f32 0x3F800000#32 - k1_pay4 (F := Ideal) x0 x2 x1 (ix2 r u)) (Ideal.ofBits .f32 0x00000000#32) = _
  rw [own_apply]
  rfl

/-- The one index of a [1, 1, 1] block. -/
theorem idx111 (i : S1x1x1.Idx) : i = ix3 (0 : Fin 1) (0 : Fin 1) (0 : Fin 1) := by
  funext a
  match a with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)
  | ⟨2, _⟩ => exact Fin.ext (by have h : (i 2).val < 1 := (i 2).isLt; show (i 2).val = 0; omega)

/-- The accumulating payload over any three columns: the old entry plus the sum over the rows of
    the first column's entry plus the quotient by 999 of the second's less the third's square. -/
theorem pay1_cols (v28 v35 v39 : FVec Ideal S1024x1 .f32) (acc : Vec Ideal S1x1x1 .f32) :
    k1_pay1 (F := Ideal) v28 v35 v39 acc (ix3 (0 : Fin 1) (0 : Fin 1) (0 : Fin 1))
      = acc (ix3 (0 : Fin 1) (0 : Fin 1) (0 : Fin 1))
        + ∑ r : Fin 1024, (v28 (ix2 r (0 : Fin 1))
            + Ideal.div (v35 (ix2 r (0 : Fin 1)) - v39 (ix2 r (0 : Fin 1)) * v39 (ix2 r (0 : Fin 1))) Spec.c999) := by
  unfold k1_pay1
  refine (shapeCast_ab_1ab_apply _ _ (0 : Fin 1) (0 : Fin 1) (0 : Fin 1)).trans ?_
  refine congrArg₂ (· + ·) (shapeCast_1ab_ab_apply acc _ (0 : Fin 1) (0 : Fin 1)) ?_
  refine (shapeCast_apply _ shapeCasts_S1_S1x1x1 _ (ix1 (0 : Fin 1)) (by
    rw [Shape.rowMajor_val_one, Shape.rowMajor_val_three]; rfl)).trans ?_
  refine (Ideal.multiReduction_add_total _ _ reduces_S1x1024x1_S1 (fun b => by match b with | ⟨0, _⟩ => rfl) _ _
    (ix1 (0 : Fin 1))).trans ?_
  refine (sum_idx1a1 _).trans ?_
  refine Finset.sum_congr rfl fun r _ => ?_
  exact shapeCast_ab_1ab_apply _ _ (0 : Fin 1) r (0 : Fin 1)

end Cert.KernelIdeal.KV.P1

namespace Cert.KernelIdeal.KV

open Cert.KernelIdeal Cert.KernelIdeal.Gen

/-! The loss kernel's arithmetic read at its one entry, over the extended reals: one point adds the sum over its
    1024 rows of the row's loss against the table of scaled centers. -/

theorem pay2_apply1 (i : S1x1x1.Idx) : k1_pay2 (F := Ideal) i = 0 := by
  obtain rfl := P1.idx111 i
  unfold k1_pay2
  refine (shapeCast_ab_1ab_apply _ _ (0 : Fin 1) (0 : Fin 1) (0 : Fin 1)).trans ?_
  exact Ideal.ofBits_zero_f32

theorem pay1_apply (x0 : Vec Ideal S1024x256 .f32) (x1 : Vec Ideal S1024 .i32) (x2 : Vec Ideal S1000x256 .bf16)
    (acc : Vec Ideal S1x1x1 .f32) (i : S1x1x1.Idx) :
    k1_pay1 (F := Ideal) (k1_pay5 x0 x2 x1) (k1_pay6 x0 x2) (k1_pay7 x0 x2 x1) acc i
      = acc i + ∑ r : Fin 1024, Spec.rowK x0 x1 x2 r := by
  obtain rfl := P1.idx111 i
  refine (P1.pay1_cols _ _ _ acc).trans ?_
  refine congrArg (acc (ix3 (0 : Fin 1) (0 : Fin 1) (0 : Fin 1)) + ·) (Finset.sum_congr rfl fun r _ => ?_)
  rw [P1.pay5_apply, P1.pay6_apply, P1.pay7_apply]
  rfl

end Cert.KernelIdeal.KV

end
-- ==== Proof.KSum1.lean ====
import proofs.«431141_j78185584657074_2_alg».proof.Proof.KFold1
import proofs.«431141_j78185584657074_2_alg».proof.Proof.KPay1
import proofs.«431141_j78185584657074_2_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (V : (c : Dev nD) → (b : Ref sig .tc) → Buf (Elt Ideal) ((c : Thread nD τ).loc b))

namespace Sum1

/-! ## The blocks the three input windows read -/

/-- The index maps of the embeddings window and of the labels window: point t reads block t. -/
theorem idx_x : ∀ t : Fin cfg1.N, win1_0.index t 0 = t.val ∧ win1_0.index t 1 = 0 :=
  (by decide +kernel : ∀ t : Fin grid1.N, win1_0.index t 0 = t.val ∧ win1_0.index t 1 = 0)

theorem idx_l : ∀ t : Fin cfg1.N, win1_1.index t 0 = t.val :=
  (by decide +kernel : ∀ t : Fin grid1.N, win1_1.index t 0 = t.val)

/-- The index map of the table's window: every point reads block (0, 0), the whole table. -/
theorem idx_w : ∀ t : Fin cfg1.N, win1_2.index t 0 = 0 ∧ win1_2.index t 1 = 0 :=
  (by decide +kernel : ∀ t : Fin grid1.N, win1_2.index t 0 = 0 ∧ win1_2.index t 1 = 0)

/-- Row r of point n's block is a row of the array. -/
theorem row_lt (n : ℕ) (hn : n < cfg1.N) (r : Fin 1024) : 1024 * n + r.val < 65536 := by
  have hN : cfg1.N = 64 := N_1
  have := r.isLt
  omega

/-- Point t's block of the embeddings is rows 1024 t … 1024 t + 1023 of the array. -/
theorem xb_apply (c : Dev nD) (t : Fin cfg1.N) (r : Fin 1024) (k : Fin 256) :
    xb1 V c t (ix2 r k) = V c main_arg0 (ix2 ⟨1024 * t.val + r.val, row_lt t.val t.isLt r⟩ k) := by
  unfold xb1 iblk1
  rw [View.read_apply]
  show V c main_arg0 (((cfg1.win 0).blk t).view.emb (ix2 r k)) = V c main_arg0 _
  refine congrArg (V c main_arg0) (funext fun a => Fin.ext ?_)
  have hi := idx_x t
  match a with
  | ⟨0, _⟩ => show win1_0.index t 0 * 1024 + 1 * r.val = 1024 * t.val + r.val; rw [hi.1]; omega
  | ⟨1, _⟩ => show win1_0.index t 1 * 256 + 1 * k.val = k.val; rw [hi.2]; omega

/-- Point t's block of the labels is entries 1024 t … 1024 t + 1023 of the array. -/
theorem lb_apply (c : Dev nD) (t : Fin cfg1.N) (r : Fin 1024) :
    lb1 V c t (ix1 r) = V c main_arg1 (ix1 ⟨1024 * t.val + r.val, row_lt t.val t.isLt r⟩) := by
  unfold lb1 iblk1
  rw [View.read_apply]
  show V c main_arg1 (((cfg1.win 1).blk t).view.emb (ix1 r)) = V c main_arg1 _
  refine congrArg (V c main_arg1) (funext fun a => Fin.ext ?_)
  have hi := idx_l t
  match a with
  | ⟨0, _⟩ => show win1_1.index t 0 * 1024 + 1 * r.val = 1024 * t.val + r.val; rw [hi]; omega

/-- Every point's block of the table is the whole table. -/
theorem wb_eq (c : Dev nD) (t : Fin cfg1.N) : wb1 V c t = V c main_v15 := by
  funext y
  unfold wb1 iblk1
  rw [View.read_apply]
  show V c main_v15 (((cfg1.win 2).blk t).view.emb y) = V c main_v15 y
  refine congrArg (V c main_v15) (funext fun a => Fin.ext ?_)
  have hi := idx_w t
  match a with
  | ⟨0, _⟩ => show win1_2.index t 0 * 1000 + 1 * (y 0).val = (y 0).val; rw [hi.1]; omega
  | ⟨1, _⟩ => show win1_2.index t 1 * 256 + 1 * (y 1).val = (y 1).val; rw [hi.2]; omega

/-- Normalizing a row commutes with taking the block. -/
theorem e_block (c : Dev nD) (t : Fin cfg1.N) (r : Fin 1024) (k : Fin 256) :
    Spec.e (xb1 V c t) r k
      = Spec.e (R := 65536) (V c main_arg0) ⟨1024 * t.val + r.val, row_lt t.val t.isLt r⟩ k := by
  unfold Spec.e Spec.nrm
  simp only [xb_apply]

/-- The label indicator commutes with taking the block. -/
theorem hot_block (c : Dev nD) (t : Fin cfg1.N) (r : Fin 1024) (j : Fin 1000) :
    Spec.hot (lb1 V c t) r j
      = Spec.hot (R := 65536) (V c main_arg1) ⟨1024 * t.val + r.val, row_lt t.val t.isLt r⟩ j := by
  unfold Spec.hot
  rw [lb_apply]

/-- So a row's loss against the table commutes with taking the blocks. -/
theorem rowK_block (c : Dev nD) (t : Fin cfg1.N) (r : Fin 1024) :
    Spec.rowK (xb1 V c t) (lb1 V c t) (wb1 V c t) r
      = Spec.rowK (R := 65536) (V c main_arg0) (V c main_arg1) (V c main_v15)
          ⟨1024 * t.val + r.val, row_lt t.val t.isLt r⟩ := by
  unfold Spec.rowK Spec.simW
  simp only [e_block, hot_block, wb_eq]

end Sum1

namespace Sum1

/-! ## Regrouping a sum over all rows by cores, points and rows of a block -/

/-- A sum over 65536 consecutive indices, as two cores of thirty-two points of 1024 rows each. -/
theorem regroup (f : ℕ → EReal) :
    ∑ cc : Fin 2, ∑ s ∈ Finset.range 32, ∑ r : Fin 1024, f (1024 * (32 * cc.val + s) + r.val)
      = ∑ n : Fin 65536, f n.val := by
  have h1 := Spec.sum_blocks 64 1024 f
  have h2 := Spec.sum_blocks 2 32 (fun t => ∑ r : Fin 1024, f (1024 * t + r.val))
  simp only [Finset.sum_range]
  exact h2.symm.trans h1.symm

/-- The indices of the [2, 1, 1] array of per-core totals are the two cores. -/
def coreEquiv : Fin 2 ≃ S2x1x1.Idx where
  toFun cc := ix3 cc 0 0
  invFun i := i 0
  left_inv _ := rfl
  right_inv i := funext fun a => match a with
    | ⟨0, _⟩ => rfl
    | ⟨1, _⟩ => Subsingleton.elim (α := Fin 1) _ _
    | ⟨2, _⟩ => Subsingleton.elim (α := Fin 1) _ _

/-- A sum over all entries of that array is a sum over the cores. -/
theorem sum_cores (G : S2x1x1.Idx → EReal) : ∑ i : S2x1x1.Idx, G i = ∑ cc : Fin 2, G (ix3 cc 0 0) :=
  (Equiv.sum_comp coreEquiv G).symm

end Sum1

namespace Sum1

/-! ## The fold over a core's thirty-two points, read at its one entry -/

/-- Row n's loss against the table, as a function of every natural n. -/
def term (c : Dev nD) (n : ℕ) : EReal :=
  if h : n < 65536 then
    Spec.rowK (R := 65536) (V c main_arg0) (V c main_arg1) (V c main_v15) ⟨n, h⟩
  else 0

/-- What point n adds to the total: the losses of its 1024 rows. -/
def add (c : Dev nD) (n : ℕ) (i : S1x1x1.Idx) : EReal :=
  ∑ r : Fin 1024, term V c (1024 * n + r.val)

/-- One point's step on the total, its rows read off the arrays. -/
theorem pay1_block (c : Dev nD) (n : ℕ) (h : n < cfg1.N) (acc : Vec Ideal S1x1x1 .f32) (i : S1x1x1.Idx) :
    k1_pay1 (F := Ideal) (k1_pay5 (xb1 V c ⟨n, h⟩) (wb1 V c ⟨n, h⟩) (lb1 V c ⟨n, h⟩))
        (k1_pay6 (xb1 V c ⟨n, h⟩) (wb1 V c ⟨n, h⟩)) (k1_pay7 (xb1 V c ⟨n, h⟩) (wb1 V c ⟨n, h⟩) (lb1 V c ⟨n, h⟩)) acc i
      = acc i + add V c n i := by
  refine (pay1_apply _ _ _ acc i).trans ?_
  refine congrArg (acc i + ·) (Finset.sum_congr rfl fun r _ => ?_)
  show _ = term V c (1024 * n + r.val)
  unfold term
  rw [dif_pos (row_lt n h r), rowK_block]

/-- A core's total after its thirty-two points: the sum of the thirty-two points' addends. -/
theorem fold (c : Dev nD) (cc : Fin 2) (i : S1x1x1.Idx) :
    Pipeline.accAt (a1_3 V c) (g1_3 V c) (32 * cc.val) 31 (pt1_lt cc) i
      = 0 + ∑ s ∈ Finset.range (31 + 1), add V c (32 * cc.val + s) i :=
  Pipeline.accAt_add_apply (a1_3 V c) (g1_3 V c) (fun _ => 0) (add V c) (32 * cc.val) 31
    (fun h i => by unfold a1_3; rw [pay1_block, pay2_apply1])
    (fun n h acc i _ _ => by unfold g1_3; exact pay1_block V c n h acc i) 31 le_rfl (pt1_lt cc) i

end Sum1

/-! Over the extended reals the per-core totals the loss kernel leaves, summed over the cores and divided by the
    row count as @main does, are the mean over all 65536 rows of the row losses against the table the region finds
    in its third operand: point t reads rows 1024 t … 1024 t + 1023. -/

theorem loss_eq (c : Dev nD) :
    Host.divf (F := Ideal) (Host.reduceAdd (G1_3 V c) (constant S_ .f32 0x00000000#32) reducesTo_S2x1x1_S_d0_1_2 h_S_)
        (constant S_ .f32 0x47800000#32)
      = fun _ => Spec.lossW (V c main_arg0) (V c main_arg1) (V c main_v15) := by
  have hG : ∀ cc : Fin 2, G1_3 V c (ix3 cc 0 0)
      = 0 + ∑ s ∈ Finset.range (31 + 1), Sum1.add V c (32 * cc.val + s) (ix3 0 0 0) :=
    fun cc => Sum1.fold V c cc (ix3 0 0 0)
  funext jj
  generalize G1_3 V c = G at hG
  unfold Spec.lossW Spec.c65536
  show Ideal.div (Host.reduceAdd (F := Ideal) G (constant S_ .f32 0x00000000#32) reducesTo_S2x1x1_S_d0_1_2 h_S_ jj)
      (Ideal.ofBits .f32 0x47800000#32) = Ideal.div _ (Ideal.ofBits .f32 0x47800000#32)
  refine congrArg (Ideal.div · (Ideal.ofBits .f32 0x47800000#32)) ?_
  simp only [Host.reduceAdd, Ideal.hostReduceAdd_def]
  rw [Ideal.hostReduceAdd_total reducesTo_S2x1x1_S_d0_1_2 (fun b => b.elim0), Sum1.sum_cores]
  refine Eq.trans (congrArg₂ (· + ·)
    (show constant (F := Ideal) S_ .f32 0x00000000#32 (Shape.Idx.first h_S_) = 0 from Ideal.ofBits_zero_f32)
    (Finset.sum_congr rfl fun cc _ => hG cc)) ?_
  simp only [zero_add]
  show ∑ cc : Fin 2, ∑ s ∈ Finset.range 32, ∑ r : Fin 1024,
      Sum1.term V c (1024 * (32 * cc.val + s) + r.val)
    = ∑ n : Fin 65536, Spec.rowK (R := 65536) (V c main_arg0) (V c main_arg1) (V c main_v15) n
  refine (Sum1.regroup (Sum1.term V c)).trans ?_
  refine Finset.sum_congr rfl fun n _ => ?_
  unfold Sum1.term
  rw [dif_pos n.isLt]

end Cert.KernelIdeal.KV

end
-- ==== Proof.RSum.lean ====
import proofs.«431141_j78185584657074_2_alg».proof.Proof.Gen.ReferenceIdeal.Read
import proofs.«431141_j78185584657074_2_alg».proof.Proof.Spec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.IdealHost
import Idealize.ShloMosaic.Lib.StableHlo.Predicate
import Idealize.ShloMosaic.PureOps.Ideal.Laws

set_option maxRecDepth 16384

noncomputable section

open Idealize.ShloMosaic Idealize.ShloMosaic.ValueIdx

namespace Cert.ReferenceIdeal.RV

open Cert.ReferenceIdeal Cert.ReferenceIdeal.Gen

/-! The reference's two accumulating scatters over the extended reals: entry (j, k) of the first is the sum of the
    normalized entries (n, k) over the rows n whose label is j, entry j of the second the number of such rows; a row
    whose label names no class lands nowhere. -/

/-- The index at which the squared entries of row n are summed: broadcast back along the columns, then the row's
    k'-th entry, is the entry (n, k') whatever the column k one started from. -/
private theorem idx_norm (n : Fin 65536) (k k' : Fin 256) :
    Read.idx_main_call0_v1 (Read.idx_main_call0_v2 (Read.idx_main_v3 (ix2 n k))) k' = ix2 n k' :=
  funext fun a => Fin.ext (by match a with | ⟨0, _⟩ => rfl | ⟨1, _⟩ => rfl)

/-- The normalized rows as the reference computes them are the specification's. -/
theorem e_eq (x0 : (⟨S65536x256, .f32⟩ : BufTy).Contents (Elt Ideal)) (n : Fin 65536) (k : Fin 256) :
    Read.val_main_v4 (F := Ideal) x0 (ix2 n k) = Spec.e x0 n k := by
  -- entry (n, k) divided by max (sqrt (0 + ∑ k', x (n, k') * x (n, k'))) ε, the zero being the sum's initial value
  rw [Read.val_main_v4_apply, Read.val_main_v3_apply, Read.val_main_v2_apply, Read.val_main_v0_apply,
    Read.val_main_call0_v2_apply, Read.val_main_call0_v1_apply, Read.val_main_v1_apply, Read.val_main_cst_apply,
    Read.val_main_call0_cst_apply]
  simp only [Read.val_main_call0_v0_apply, idx_norm]
  rw [Ideal.hostDivf_def, Ideal.maximumf_def, Ideal.hostUnary_sqrt_def, Ideal.ofBits_def, Ideal.ofBits_def,
    Ideal.ofBits_zero_f32, zero_add]
  simp only [Ideal.mulf_def]
  rfl

/-- A signed 32-bit word has the value j < 1000 exactly when it is the word of j. -/
private theorem label_iff (v : BitVec 32) (j : Fin 1000) : v.toInt = (j.val : Int) ↔ v = BitVec.ofNat 32 j.val := by
  have hj : j.val < 2 ^ 31 := by have := j.isLt; omega
  constructor
  · intro h
    exact BitVec.eq_of_toInt_eq (h.trans (StableHlo.Predicate.toInt_ofNat_small j.val hj).symm)
  · rintro rfl
    exact StableHlo.Predicate.toInt_ofNat_small j.val hj

section Sums
local notation "dS" => scatter_S1000x256_S65536x1_S65536x256_1_0_0_1

/-! The [1000, 256] scatter: axis 0 of the operand is named by the scatter indices and is an inserted window axis,
    axis 1 is the one window axis. So update (n, k') starts at (label of row n, 0) and has window coordinate (0, k'). -/

private theorem start0 {w : Nat} (idx : IVec S65536x1 w) (n : Fin 65536) (k' : Fin 256) :
    ScatterDims.start dS (ix2 n k') idx (0 : Fin 2) = (idx (ix2 n (0 : Fin 1))).toInt := by
  unfold ScatterDims.start
  rw [dif_pos (by decide)]
  refine congrArg (fun t => (idx t).toInt) (funext fun b => ?_)
  match b with
  | ⟨0, _⟩ => rfl
  | ⟨1, _⟩ => rfl

private theorem start1 {w : Nat} (idx : IVec S65536x1 w) (n : Fin 65536) (k' : Fin 256) :
    ScatterDims.start dS (ix2 n k') idx (1 : Fin 2) = 0 := by
  unfold ScatterDims.start
  rw [dif_neg (by decide)]

private theorem window0 (n : Fin 65536) (k' : Fin 256) :
    ScatterDims.window dS (ix2 n k') (0 : Fin 2) = 0 := by
  unfold ScatterDims.window
  rw [dif_neg (by decide)]

private theorem window1 (n : Fin 65536) (k' : Fin 256) :
    ScatterDims.window dS (ix2 n k') (1 : Fin 2) = k'.val := by
  unfold ScatterDims.window
  rw [dif_pos (by decide)]
  rfl

/-- Update (n, k') lands on entry (j, k) exactly when row n's label is j and k' = k; a label outside [0, 1000)
    makes the result index leave the operand, and then the update lands nowhere. -/
private theorem resultIdx_iff {w : Nat} (idx : IVec S65536x1 w) (n : Fin 65536) (k' k : Fin 256) (j : Fin 1000) :
    ScatterDims.resultIdx? dS (ix2 n k') idx = some (ix2 j k)
      ↔ (idx (ix2 n (0 : Fin 1))).toInt = (j.val : Int) ∧ k' = k := by
  have hs0 : S1000x256.size (0 : Fin 2) = 1000 := rfl
  have hs1 : S1000x256.size (1 : Fin 2) = 256 := rfl
  unfold ScatterDims.resultIdx?
  split
  next hc =>
    -- inside the operand: the result index is (label, k'), coordinate by coordinate
    rw [Option.some.injEq]
    constructor
    · intro h
      have h0 := hc (0 : Fin 2)
      have e0 := congrArg (fun f => (f (0 : Fin 2)).val) h
      have e1 := congrArg (fun f => (f (1 : Fin 2)).val) h
      simp only [start0, window0, start1, window1] at e0 e1 h0
      refine ⟨?_, Fin.ext ?_⟩
      · have : ((ix2 j k : S1000x256.Idx) (0 : Fin 2)).val = j.val := rfl
        omega
      · have : ((ix2 j k : S1000x256.Idx) (1 : Fin 2)).val = k.val := rfl
        omega
    · rintro ⟨hL, rfl⟩
      funext a
      revert a
      refine Fin.forall_fin_two.2 ⟨?_, ?_⟩
      · refine Fin.ext ?_
        show (ScatterDims.start dS (ix2 n k') idx (0 : Fin 2) + (ScatterDims.window dS (ix2 n k') (0 : Fin 2) : Int)).toNat = j.val
        rw [start0, window0, hL]; omega
      · refine Fin.ext ?_
        show (ScatterDims.start dS (ix2 n k') idx (1 : Fin 2) + (ScatterDims.window dS (ix2 n k') (1 : Fin 2) : Int)).toNat = k'.val
        rw [start1, window1]; omega
  next hc =>
    -- outside the operand: the label cannot be a class, since a class j < 1000 and a column k' < 256 are inside
    constructor
    · intro h; cases h
    · rintro ⟨hL, rfl⟩
      exfalso
      refine hc (Fin.forall_fin_two.2 ⟨?_, ?_⟩)
      · rw [start0, window0, hL, hs0]; have := j.isLt; omega
      · rw [start1, window1, hs1]; have := k'.isLt; omega

/-- The labels broadcast to a column read back at row n. -/
private theorem idx_v6 (n : Fin 65536) : Read.idx_main_v6 (ix2 n (0 : Fin 1)) = ix1 n :=
  funext fun a => Fin.ext (by match a with | ⟨0, _⟩ => rfl)

theorem sums_eq (x0 : (⟨S65536x256, .f32⟩ : BufTy).Contents (Elt Ideal)) (x1 : (⟨S65536, .i32⟩ : BufTy).Contents (Elt Ideal)) :
    Read.val_main_v7 (F := Ideal) x0 x1 = Spec.sumsArr x0 x1 := by
  funext i
  obtain ⟨j, k, rfl⟩ : ∃ (j : Fin 1000) (k : Fin 256), i = ix2 j k := ⟨i 0, i 1, eq_ix2 i⟩
  -- entry (j, k): zero plus the sum of the updates landing there, written as a sum over all (n, k') of an indicator
  unfold Read.val_main_v7 Host.scatterAdd
  rw [Ideal.hostScatterAdd_def]
  unfold Ideal.hostScatterAdd
  rw [Read.val_main_v5_apply, Read.val_main_cst_0_apply, Ideal.ofBits_def, Ideal.ofBits_zero_f32, zero_add,
    Finset.sum_filter, sum_idx2]
  simp only [resultIdx_iff, e_eq, Read.val_main_v6_apply, idx_v6, label_iff]
  show _ = ∑ n : Fin 65536, Spec.hot x1 n j * Spec.e x0 n k
  -- row by row: with label j the inner sum keeps the one term k' = k, otherwise every term is zero
  refine Finset.sum_congr rfl fun n _ => ?_
  unfold Spec.hot
  by_cases hL : x1 (ix1 n) = BitVec.ofNat 32 j.val
  · simp only [hL, true_and, if_true, one_mul]
    exact Finset.sum_ite_eq' Finset.univ k _ |>.trans (if_pos (Finset.mem_univ k))
  · simp only [hL, false_and, if_false, zero_mul, Finset.sum_const_zero]
end Sums

section Counts
local notation "dC" => scatter_S1000_S65536x1_S65536_n_0_0_1

/-! The [1000] scatter of ones: the operand's one axis is named by the scatter indices and inserted, there is no
    window axis. So update n starts at the label of row n and has window coordinate 0. -/

private theorem cstart0 {w : Nat} (idx : IVec S65536x1 w) (n : Fin 65536) :
    ScatterDims.start dC (ix1 n) idx (0 : Fin 1) = (idx (ix2 n (0 : Fin 1))).toInt := by
  unfold ScatterDims.start
  rw [dif_pos (by decide)]
  refine congrArg (fun t => (idx t).toInt) (funext fun b => ?_)
  match b with
  | ⟨0, _⟩ => rfl
  | ⟨1, _⟩ => rfl

private theorem cwindow0 (n : Fin 65536) :
    ScatterDims.window dC (ix1 n) (0 : Fin 1) = 0 := by
  unfold ScatterDims.window
  rw [dif_neg (by decide)]

/-- Update n lands on entry j exactly when row n's label is j. -/
private theorem cresultIdx_iff {w : Nat} (idx : IVec S65536x1 w) (n : Fin 65536) (j : Fin 1000) :
    ScatterDims.resultIdx? dC (ix1 n) idx = some (ix1 j)
      ↔ (idx (ix2 n (0 : Fin 1))).toInt = (j.val : Int) := by
  have hs0 : S1000.size (0 : Fin 1) = 1000 := rfl
  unfold ScatterDims.resultIdx?
  split
  next hc =>
    rw [Option.some.injEq]
    constructor
    · intro h
      have h0 := hc (0 : Fin 1)
      have e0 := congrArg (fun f => (f (0 : Fin 1)).val) h
      simp only [cstart0, cwindow0] at e0 h0
      have : ((ix1 j : S1000.Idx) (0 : Fin 1)).val = j.val := rfl
      omega
    · intro hL
      funext a
      revert a
      refine Fin.forall_fin_one.2 ?_
      refine Fin.ext ?_
      show (ScatterDims.start dC (ix1 n) idx (0 : Fin 1) + (ScatterDims.window dC (ix1 n) (0 : Fin 1) : Int)).toNat = j.val
      rw [cstart0, cwindow0, hL]; omega
  next hc =>
    constructor
    · intro h; cases h
    · intro hL
      exfalso
      refine hc (Fin.forall_fin_one.2 ?_)
      rw [cstart0, cwindow0, hL, hs0]; have := j.isLt; omega

private theorem idx_v10 (n : Fin 65536) : Read.idx_main_v10 (ix2 n (0 : Fin 1)) = ix1 n :=
  funext fun a => Fin.ext (by match a with | ⟨0, _⟩ => rfl)

theorem counts_eq (x1 : (⟨S65536, .i32⟩ : BufTy).Contents (Elt Ideal)) :
    Read.val_main_v11 (F := Ideal) x1 = Spec.countsArr x1 := by
  funext i
  obtain ⟨j, rfl⟩ : ∃ j : Fin 1000, i = ix1 j := ⟨i 0, eq_ix1 i⟩
  -- entry j: zero plus the sum over the rows n of the indicator "row n lands on j" times one
  unfold Read.val_main_v11 Host.scatterAdd
  rw [Ideal.hostScatterAdd_def]
  unfold Ideal.hostScatterAdd
  rw [Read.val_main_v9_apply, Read.val_main_cst_2_apply, Ideal.ofBits_def, Ideal.ofBits_zero_f32, zero_add,
    Finset.sum_filter, ← Equiv.sum_comp (idxEquiv1 (n := 65536)).symm]
  show ∑ n : Fin 65536, (if ScatterDims.resultIdx? dC (ix1 n) (Read.val_main_v10 (F := Ideal) x1) = some (ix1 j)
      then Read.val_main_v8 (F := Ideal) (ix1 n) else 0) = ∑ n : Fin 65536, Spec.hot x1 n j
  refine Finset.sum_congr rfl fun n _ => ?_
  simp only [cresultIdx_iff, Read.val_main_v10_apply, idx_v10, label_iff]
  rw [Read.val_main_v8_apply, Read.val_main_cst_1_apply, Ideal.ofBits_def, Ideal.ofBits_one_f32]
  rfl
end Counts

end Cert.ReferenceIdeal.RV

end
-- ==== Proof.RLoss.lean ====
import proofs.«431141_j78185584657074_2_alg».proof.Proof.Gen.ReferenceIdeal.Read
import proofs.«431141_j78185584657074_2_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

open Idealize.ShloMosaic Idealize.ShloMosaic.ValueIdx

namespace Cert.ReferenceIdeal.RV

open Cert.ReferenceIdeal Cert.ReferenceIdeal.Gen

/-! The reference from its class centers on, over the extended reals: with every label in range its two gathers
    read each row's similarity, and each row's squared hinge, at the row's own label, and the result is the mean row
    loss of the specification over the centers and denominators the reference computed. -/

/-- The row index the norm's sum reads, through the two broadcasts, is the row's own. -/
private theorem idx_row (n : Fin 65536) (k k' : Fin 256) :
    Read.idx_main_call0_v1 (Read.idx_main_call0_v2 (Read.idx_main_v3 (ix2 n k))) k' = ix2 n k' :=
  funext fun a => Fin.ext (by match a with | ⟨0, _⟩ => rfl | ⟨1, _⟩ => rfl)

/-- The normalized rows as the reference computes them are the specification's. -/
theorem e_eq' (x0 : (⟨S65536x256, .f32⟩ : BufTy).Contents (Elt Ideal)) (n : Fin 65536) (k : Fin 256) :
    Read.val_main_v4 (F := Ideal) x0 (ix2 n k) = Spec.e x0 n k := by
  rw [Read.val_main_v4_apply, Read.val_main_v3_apply, Read.val_main_v2_apply, Read.val_main_v0_apply,
    Read.val_main_call0_v2_apply, Read.val_main_call0_v1_apply, Read.val_main_v1_apply, Read.val_main_cst_apply,
    Read.val_main_call0_cst_apply]
  simp only [Read.val_main_call0_v0_apply, idx_row, Ideal.hostDivf_def, Ideal.maximumf_def, Ideal.hostUnary_sqrt_def,
    Ideal.mulf_def, Ideal.ofBits_def, Ideal.ofBits_zero_f32, zero_add]
  rfl

/-- Every denominator is at least the positive clamp. -/
theorem den_pos (x0 : (⟨S65536x256, .f32⟩ : BufTy).Contents (Elt Ideal)) (x1 : (⟨S65536, .i32⟩ : BufTy).Contents (Elt Ideal))
    (j : Fin 1000) : 0 < Read.val_main_v19 (F := Ideal) x0 x1 (ix1 j) := by
  rw [Read.val_main_v19_apply, Read.val_main_v18_apply, Read.val_main_cst_4_apply, Ideal.maximumf_def, Ideal.ofBits_def]
  exact lt_max_of_lt_right Spec.eps8_pos

/-- The dimension numbers of the reference's two gathers: both operand axes collapsed and start-indexed, the index
    vector along axis 1 of the [65536, 2] index array, slices of one element. -/
private abbrev gd : GatherDims S65536x1000 S65536x2 S65536 := gather_S65536x1000_S65536x2_S65536_n_01_n_n_01_1_11

/-- On operand axis 0 result row `n` reads the clamped signed value of the index array's entry (n, 0). -/
private theorem gather_axis0 (I : IVec S65536x2 32) (n : Fin 65536) :
    (gd.operandIdx (ix1 n) I 0).val = min (I (ix2 n 0)).toInt.toNat (65536 - 1) := by
  show gd.start (ix1 n) I 0 + gd.batchCoord (ix1 n) 0 + gd.offCoord (ix1 n) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin S65536x1000.rank) ∈ gd.startIndexMap by decide)]
  have hsi : gd.siIdx (ix1 n) ⟨List.idxOf (0 : Fin S65536x1000.rank) gd.startIndexMap,
      List.idxOf_lt_length_iff.2 (by decide)⟩ = ix2 n 0 := by
    funext b; refine Fin.ext ?_
    match b with
    | ⟨0, _⟩ => rfl
    | ⟨1, _⟩ => rfl
  rw [hsi]
  rfl

/-- On operand axis 1 it reads the clamped signed value of the entry (n, 1). -/
private theorem gather_axis1 (I : IVec S65536x2 32) (n : Fin 65536) :
    (gd.operandIdx (ix1 n) I 1).val = min (I (ix2 n 1)).toInt.toNat (1000 - 1) := by
  show gd.start (ix1 n) I 1 + gd.batchCoord (ix1 n) 1 + gd.offCoord (ix1 n) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S65536x1000.rank) ∈ gd.startIndexMap by decide)]
  have hsi : gd.siIdx (ix1 n) ⟨List.idxOf (1 : Fin S65536x1000.rank) gd.startIndexMap,
      List.idxOf_lt_length_iff.2 (by decide)⟩ = ix2 n 1 := by
    funext b; refine Fin.ext ?_
    match b with
    | ⟨0, _⟩ => rfl
    | ⟨1, _⟩ => rfl
  rw [hsi]
  rfl

/-- A small natural number read back signed off its 32-bit word, and clamped below an extent it is under. -/
private theorem clamp_small (a N : Nat) (w : BitVec 32) (hw : w = BitVec.ofNat 32 a) (ha : a < N) (hN : N ≤ 65536) :
    min w.toInt.toNat (N - 1) = a := by
  rw [hw, StableHlo.Predicate.toInt_ofNat_small a (by omega), Int.toNat_natCast]
  omega

/-- THE GATHER AT ROW n: with the index array's row n holding the words of `n` and of a class number `l`, the gather
    reads the table at (n, l): both starts are in range, so the clamps are the identity. -/
private theorem gather_row {α : Type} (T : S65536x1000.Idx → α) (I : IVec S65536x2 32) (n : Fin 65536) (l : Fin 1000)
    (h0 : I (ix2 n 0) = BitVec.ofNat 32 n.val) (h1 : I (ix2 n 1) = BitVec.ofNat 32 l.val) :
    Host.gather gd T I (ix1 n) = T (ix2 n l) := by
  unfold Host.gather
  refine congrArg T (funext fun a => Fin.ext ?_)
  match a with
  | ⟨0, _⟩ => exact (gather_axis0 I n).trans (clamp_small n.val 65536 _ h0 n.isLt (le_refl _))
  | ⟨1, _⟩ => exact (gather_axis1 I n).trans (clamp_small l.val 1000 _ h1 l.isLt (by omega))

/-! The index arrays of the two gathers: column 0 is the row number, column 1 the label, each under a wrap of
    negative values that never fires. -/

/-- A word of a natural number below 2³¹ is not negative, so the wrap keeps it. -/
private theorem no_wrap (a : Nat) (ha : a < 2 ^ 31) (w c : BitVec 32) (hw : w = BitVec.ofNat 32 a) :
    Scalar.select (IntOp.cmpi .slt w 0#32) c w = BitVec.ofNat 32 a := by
  subst hw
  have h : ¬ IntOp.cmpi .slt (BitVec.ofNat 32 a) 0#32 = 1#1 := by
    rw [StableHlo.Predicate.slt_iff_toNat (by rw [BitVec.toNat_ofNat]; omega) (by decide)]
    exact Nat.not_lt_zero _
  rw [eq_zero_of_ne_one h, select_zero]

/-- Column 0 of a concatenation of two [65536, 1] columns along axis 1 is the first column. -/
private theorem concat_col0 {α : Type} (A B : S65536x1.Idx → α) (n : Fin 65536) :
    concatenate S65536x2 1 [⟨S65536x1, A⟩, ⟨S65536x1, B⟩] concatenates_S65536x1_S65536x1_S65536x2_d1 (ix2 n (0 : Fin 2))
      = A (ix2 n (0 : Fin 1)) :=
  concatenate_pair_apply_left (1 : Fin S65536x2.rank) A B concatenates_S65536x1_S65536x1_S65536x2_d1 (ix2 n (0 : Fin 2)) rfl
    (ix2 n (0 : Fin 1)) (fun b => by match b with | ⟨0, _⟩ => rfl | ⟨1, _⟩ => rfl)

/-- Column 1 is the second column. -/
private theorem concat_col1 {α : Type} (A B : S65536x1.Idx → α) (n : Fin 65536) :
    concatenate S65536x2 1 [⟨S65536x1, A⟩, ⟨S65536x1, B⟩] concatenates_S65536x1_S65536x1_S65536x2_d1 (ix2 n (1 : Fin 2))
      = B (ix2 n (0 : Fin 1)) :=
  concatenate_pair_apply_right (1 : Fin S65536x2.rank) A B concatenates_S65536x1_S65536x1_S65536x2_d1 (ix2 n (1 : Fin 2)) rfl rfl
    (ix2 n (0 : Fin 1)) (fun b hb => by match b, hb with | ⟨0, _⟩, _ => rfl | ⟨1, _⟩, hb => exact absurd rfl hb) rfl

private theorem idx37_eq (n : Fin 65536) : Read.idx_main_v37 (ix2 n (0 : Fin 1)) = ix1 n :=
  funext fun a => Fin.ext (by match a with | ⟨0, _⟩ => rfl)
private theorem idx58_eq (n : Fin 65536) : Read.idx_main_v58 (ix2 n (0 : Fin 1)) = ix1 n :=
  funext fun a => Fin.ext (by match a with | ⟨0, _⟩ => rfl)

section Labels
variable (x0 : (⟨S65536x256, .f32⟩ : BufTy).Contents (Elt Ideal)) (x1 : (⟨S65536, .i32⟩ : BufTy).Contents (Elt Ideal))
  (lab : Fin 65536 → Fin 1000) (hlab : ∀ n, x1 (ix1 n) = BitVec.ofNat 32 (lab n).val)
include hlab

/-- The first gather's index array at row n: the words of n and of n's label. -/
private theorem idx38 (n : Fin 65536) :
    Read.val_main_v38 (F := Ideal) x1 (ix2 n 0) = BitVec.ofNat 32 n.val
      ∧ Read.val_main_v38 (F := Ideal) x1 (ix2 n 1) = BitVec.ofNat 32 (lab n).val := by
  unfold Read.val_main_v38
  rw [concat_col0, concat_col1]
  constructor
  · rw [Read.val_main_v36_apply, Read.val_main_v30_apply, Read.val_main_v27_apply, Read.val_main_v26_apply,
      Read.val_main_c_apply]
    exact no_wrap n.val (by have := n.isLt; omega) _ _ (Read.val_main_v25_apply _)
  · rw [Read.val_main_v37_apply, Read.val_main_v35_apply, Read.val_main_v32_apply, Read.val_main_v31_apply,
      Read.val_main_c_6_apply, idx37_eq]
    exact no_wrap (lab n).val (by have := (lab n).isLt; omega) _ _ (hlab n)

/-- The second gather's index array at row n: the same two words. -/
private theorem idx59 (n : Fin 65536) :
    Read.val_main_v59 (F := Ideal) x1 (ix2 n 0) = BitVec.ofNat 32 n.val
      ∧ Read.val_main_v59 (F := Ideal) x1 (ix2 n 1) = BitVec.ofNat 32 (lab n).val := by
  unfold Read.val_main_v59
  rw [concat_col0, concat_col1]
  constructor
  · rw [Read.val_main_v57_apply, Read.val_main_v51_apply, Read.val_main_v48_apply, Read.val_main_v47_apply,
      Read.val_main_c_10_apply]
    exact no_wrap n.val (by have := n.isLt; omega) _ _ (Read.val_main_v25_apply _)
  · rw [Read.val_main_v58_apply, Read.val_main_v56_apply, Read.val_main_v53_apply, Read.val_main_v52_apply,
      Read.val_main_c_12_apply, idx58_eq]
    exact no_wrap (lab n).val (by have := (lab n).isLt; omega) _ _ (hlab n)

/-- The first gather reads each row's similarity at the row's label. -/
private theorem gather39 (n : Fin 65536) :
    Read.val_main_v39 (F := Ideal) x0 x1 (ix1 n) = Read.val_main_v24 (F := Ideal) x0 x1 (ix2 n (lab n)) := by
  unfold Read.val_main_v39
  exact gather_row _ _ n (lab n) (idx38 x1 lab hlab n).1 (idx38 x1 lab hlab n).2

/-- The second gather reads each row's squared hinge at the row's label. -/
private theorem gather60 (n : Fin 65536) :
    Read.val_main_v60 (F := Ideal) x0 x1 (ix1 n) = Read.val_main_v46 (F := Ideal) x0 x1 (ix2 n (lab n)) := by
  unfold Read.val_main_v60
  exact gather_row _ _ n (lab n) (idx59 x1 lab hlab n).1 (idx59 x1 lab hlab n).2

end Labels

/-! The similarity block and the squared hinge block, entry by entry. -/

private theorem lidx_eq (n : Fin 65536) (j : Fin 1000) (k : Fin 256) : Read.lidx_main_v21 (ix2 n j) k = ix2 n k :=
  funext fun a => Fin.ext (by match a with | ⟨0, _⟩ => rfl | ⟨1, _⟩ => rfl)
private theorem ridx_eq (n : Fin 65536) (j : Fin 1000) (k : Fin 256) :
    Read.idx_main_v20 (Read.ridx_main_v21 (ix2 n j) k) = ix2 j k :=
  funext fun a => Fin.ext (by match a with | ⟨0, _⟩ => rfl | ⟨1, _⟩ => rfl)
private theorem didx_eq (n : Fin 65536) (j : Fin 1000) : Read.idx_main_v22 (Read.idx_main_v23 (ix2 n j)) = ix1 j :=
  funext fun a => Fin.ext (by match a with | ⟨0, _⟩ => rfl)

/-- Entry (n, j) of the similarity block: the normalized row n against center j, over denominator j. -/
private theorem sim_eq (x0 : (⟨S65536x256, .f32⟩ : BufTy).Contents (Elt Ideal)) (x1 : (⟨S65536, .i32⟩ : BufTy).Contents (Elt Ideal))
    (n : Fin 65536) (j : Fin 1000) :
    Read.val_main_v24 (F := Ideal) x0 x1 (ix2 n j)
      = Spec.simR x0 (Read.val_main_v16 (F := Ideal) x0 x1) (Read.val_main_v19 (F := Ideal) x0 x1) n j := by
  rw [Read.val_main_v24_apply, Read.val_main_v21_apply, Read.val_main_v23_apply, Read.val_main_v22_apply, didx_eq]
  simp only [Read.val_main_v20_apply, lidx_eq, ridx_eq, e_eq', Ideal.hostDivf_def]
  rfl

/-- Entry (n, j) of the squared hinge block. -/
private theorem hinge_eq (x0 : (⟨S65536x256, .f32⟩ : BufTy).Contents (Elt Ideal)) (x1 : (⟨S65536, .i32⟩ : BufTy).Contents (Elt Ideal))
    (n : Fin 65536) (j : Fin 1000) :
    Read.val_main_v46 (F := Ideal) x0 x1 (ix2 n j)
      = max (Spec.one32 - Spec.simR x0 (Read.val_main_v16 (F := Ideal) x0 x1) (Read.val_main_v19 (F := Ideal) x0 x1) n j) Spec.zero32
        * max (Spec.one32 - Spec.simR x0 (Read.val_main_v16 (F := Ideal) x0 x1) (Read.val_main_v19 (F := Ideal) x0 x1) n j) Spec.zero32 := by
  rw [Read.val_main_v46_apply, Read.val_main_v45_apply, Read.val_main_v44_apply, Read.val_main_v43_apply,
    Read.val_main_cst_9_apply, Read.val_main_call2_v0_apply, Read.val_main_call2_cst_apply, sim_eq]
  rfl

/-! Row n's loss and the mean. -/

private theorem idx61_eq (n : Fin 65536) (j : Fin 1000) : Read.idx_main_v61 (ix1 n) j = ix2 n j :=
  funext fun a => Fin.ext (by match a with | ⟨0, _⟩ => rfl | ⟨1, _⟩ => rfl)

/-- Row n's loss as the reference computes it is the specification's row loss of row n's similarities and of its
    similarity with its own label: the two gathered entries are the label's, and the sum's initial value is zero. -/
private theorem row_eq (x0 : (⟨S65536x256, .f32⟩ : BufTy).Contents (Elt Ideal)) (x1 : (⟨S65536, .i32⟩ : BufTy).Contents (Elt Ideal))
    (lab : Fin 65536 → Fin 1000) (hlab : ∀ n, x1 (ix1 n) = BitVec.ofNat 32 (lab n).val) (n : Fin 65536) :
    Read.val_main_v65 (F := Ideal) x0 x1 (ix1 n)
      = Spec.rowLoss (Spec.simR x0 (Read.val_main_v16 (F := Ideal) x0 x1) (Read.val_main_v19 (F := Ideal) x0 x1) n)
          (Spec.simR x0 (Read.val_main_v16 (F := Ideal) x0 x1) (Read.val_main_v19 (F := Ideal) x0 x1) n (lab n)) := by
  rw [Read.val_main_v65_apply, Read.val_main_v42_apply, Read.val_main_v41_apply, Read.val_main_v40_apply,
    Read.val_main_cst_8_apply, Read.val_main_v64_apply, Read.val_main_v63_apply, Read.val_main_cst_15_apply,
    Read.val_main_v62_apply, Read.val_main_v61_apply, Read.val_main_cst_14_apply,
    gather39 x0 x1 lab hlab, gather60 x0 x1 lab hlab, sim_eq, hinge_eq]
  simp only [idx61_eq, hinge_eq, Ideal.ofBits_def, Ideal.ofBits_zero_f32, zero_add, Ideal.addf_def, Ideal.subf_def,
    Ideal.mulf_def, Ideal.hostDivf_def]
  rfl

theorem loss_eq (x0 : (⟨S65536x256, .f32⟩ : BufTy).Contents (Elt Ideal)) (x1 : (⟨S65536, .i32⟩ : BufTy).Contents (Elt Ideal))
    (lab : Fin 65536 → Fin 1000) (hlab : ∀ n, x1 (ix1 n) = BitVec.ofNat 32 (lab n).val) :
    Read.val_main_v67 (F := Ideal) x0 x1
      = fun _ => Spec.lossR x0 (Read.val_main_v16 (F := Ideal) x0 x1) (Read.val_main_v19 (F := Ideal) x0 x1) lab := by
  funext i
  rw [Read.val_main_v67_apply, Read.val_main_v66_apply, Read.val_main_cst_17_apply, Read.val_main_cst_16_apply,
    ← Equiv.sum_comp (idxEquiv1 (n := 65536)).symm]
  simp only [Ideal.hostDivf_def, Ideal.ofBits_def, Ideal.ofBits_zero_f32, zero_add]
  unfold Spec.lossR
  refine congrArg (fun s => Ideal.div s Spec.c65536) (Finset.sum_congr rfl fun n _ => ?_)
  exact row_eq x0 x1 lab hlab n

end Cert.ReferenceIdeal.RV

end
-- ==== Proof.Final.lean ====
import proofs.«431141_j78185584657074_2_alg».proof.Defs
import proofs.«431141_j78185584657074_2_alg».proof.Proof.Gen.Kernel.Frame
import proofs.«431141_j78185584657074_2_alg».proof.Proof.Gen.KernelIdeal.Frame
import proofs.«431141_j78185584657074_2_alg».proof.Proof.Gen.ReferenceIdeal.Run
import proofs.«431141_j78185584657074_2_alg».proof.Proof.Gen.ReferenceIdeal.Read
import proofs.«431141_j78185584657074_2_alg».proof.Proof.Gen.Pre_finite_inputs
import proofs.«431141_j78185584657074_2_alg».proof.Proof.Spec
import proofs.«431141_j78185584657074_2_alg».proof.Proof.PreDecode
import proofs.«431141_j78185584657074_2_alg».proof.Proof.KHost
import proofs.«431141_j78185584657074_2_alg».proof.Proof.KRun
import proofs.«431141_j78185584657074_2_alg».proof.Proof.KFold0
import proofs.«431141_j78185584657074_2_alg».proof.Proof.KFold1
import proofs.«431141_j78185584657074_2_alg».proof.Proof.KSum0
import proofs.«431141_j78185584657074_2_alg».proof.Proof.KSum1
import proofs.«431141_j78185584657074_2_alg».proof.Proof.RSum
import proofs.«431141_j78185584657074_2_alg».proof.Proof.RLoss
import Idealize.ShloMosaic.Lib.StableHlo.Predicate

set_option maxRecDepth 16384

noncomputable section

open Idealize.ShloMosaic Idealize.ShloMosaic.TcCoe Idealize.SL.Sem Idealize.ShloMosaic.ValueIdx

/-! ## The kernel program's result, over the extended reals -/

namespace Cert.KernelIdeal.KV

open Cert.KernelIdeal Cert.KernelIdeal.Gen

/-- Dividing each row of the centers by its clamped norm, entry by entry. -/
theorem midW_apply (C : Vec Ideal S1000x256 .f32) : (midW (F := Ideal) C : Spec.SC.Idx → EReal) = Spec.scaled C (midD C) := by
  funext i
  obtain ⟨j, k, rfl⟩ : ∃ (j : Fin 1000) (k : Fin 256), i = ix2 j k := ⟨i 0, i 1, eq_ix2 i⟩
  unfold midW Spec.scaled
  simp only [truncf, Host.divf, Ideal.truncf_def, Ideal.hostDivf_def]
  congr 1
  have h := StableHlo.Predicate.bcast_rows bcast_S1000_S1000x1_0 bcast_S1000x1_S1000x256_0_1 (midD C) j k
  have e1 : (StableHlo.Predicate.ij j k : S1000x256.Idx) = ix2 j k := by
    funext a; match a with | ⟨0, _⟩ => rfl | ⟨1, _⟩ => rfl
  have e2 : (Shape.Idx.ofFin j : S1000.Idx) = ix1 j := by
    funext a; match a with | ⟨0, _⟩ => rfl
  rw [e1, e2] at h
  exact h

variable (m : (ℓ : Loc nD τ sig) → Buf (Elt Ideal) ℓ) (ρ : Dev nD → PrngReg)

/-- The class centers as the kernel program's host operations compute them. -/
def CK (c : Dev nD) : Vec Ideal S1000x256 .f32 := midC (G0_2 (V0 m ρ) c) (G0_3 (V0 m ρ) c)

/-- The kernel program's result is the mean row loss against its own scaled centers. -/
theorem kernel_value (c : Dev nD) :
    W6 m ρ c (Proc.devRef .tc main_v18)
      = fun _ => Spec.lossW (m ((c : Thread nD τ).loc main_arg0)) (m ((c : Thread nD τ).loc main_arg1))
          (Spec.scaled (CK m ρ c) (midD (CK m ρ c))) := by
  rw [W6_v18, arr1_3, loss_eq (V4 m ρ) c, V4_arg0, V4_arg1, V4_v15, arr0_2, arr0_3, midW_apply]
  rfl

/-- The centers are the shared host operations applied to the specification's sums and counts. -/
theorem CK_eq (c : Dev nD) :
    CK m ρ c = Host.divf (F := Ideal) (Spec.sumsArr (m ((c : Thread nD τ).loc main_arg0)) (m ((c : Thread nD τ).loc main_arg1)))
      (broadcastInDim S1000x256 ![0, 1] bcast_S1000x1_S1000x256_0_1
        (broadcastInDim S1000x1 ![0] bcast_S1000_S1000x1_0
          (maximumf (Spec.countsArr (m ((c : Thread nD τ).loc main_arg1)))
            (broadcastInDim S1000 ![] bcast_S_S1000 (constant S_ .f32 0x3F800000#32))))) := by
  unfold CK midC
  rw [sums_eq (V0 m ρ) c, counts_eq (V0 m ρ) c, V0_arg0, V0_arg1]

end Cert.KernelIdeal.KV

/-! ## The reference's centers and denominators -/

namespace Cert.ReferenceIdeal.RV

open Cert.ReferenceIdeal Cert.ReferenceIdeal.Gen

theorem CR_eq (x0 : (⟨S65536x256, .f32⟩ : BufTy).Contents (Elt Ideal)) (x1 : (⟨S65536, .i32⟩ : BufTy).Contents (Elt Ideal)) :
    Read.val_main_v16 (F := Ideal) x0 x1 = Host.divf (F := Ideal) (Spec.sumsArr x0 x1)
      (broadcastInDim S1000x256 ![0, 1] bcast_S1000x1_S1000x256_0_1
        (broadcastInDim S1000x1 ![0] bcast_S1000_S1000x1_0
          (maximumf (Spec.countsArr x1)
            (broadcastInDim S1000 ![] bcast_S_S1000 (constant S_ .f32 0x3F800000#32))))) := by
  unfold Read.val_main_v16 Read.val_main_v15 Read.val_main_v14 Read.val_main_v13 Read.val_main_v12 Read.val_main_cst_3
  rw [sums_eq, counts_eq]

theorem DR_eq (x0 : (⟨S65536x256, .f32⟩ : BufTy).Contents (Elt Ideal)) (x1 : (⟨S65536, .i32⟩ : BufTy).Contents (Elt Ideal)) :
    Read.val_main_v19 (F := Ideal) x0 x1 = Cert.KernelIdeal.KV.midD (F := Ideal) (Read.val_main_v16 (F := Ideal) x0 x1) := by
  unfold Read.val_main_v19 Read.val_main_v18 Read.val_main_cst_4 Read.val_main_v17 Read.val_main_call1_v1 Read.val_main_call1_cst Read.val_main_call1_v0
  generalize Read.val_main_v16 (F := Ideal) x0 x1 = C
  rfl

end Cert.ReferenceIdeal.RV

/-! ## The claims -/

namespace Cert.Final

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: widening a narrowed vector gives it back over the extended reals. -/
theorem preserves : Cert.preserves_Kernel_KernelIdeal := IdealRules.truncf_extf.statement _ .f32 .bf16

theorem algebraic : Cert.algebraic_KernelIdeal_ReferenceIdeal := by
  intro m ρ m' ρ' hpre hagree
  refine ⟨fun c => Cert.KernelIdeal.Gen.W6 m ρ c (Proc.devRef .tc Cert.KernelIdeal.main_v18), Cert.KernelIdeal.KV.run18 m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v67_eq, (hagree c).1, (hagree c).2]
  show _ = Cert.KernelIdeal.Gen.W6 m ρ c (Proc.devRef .tc Cert.KernelIdeal.main_v18)
  rw [Cert.KernelIdeal.KV.kernel_value]
  -- every label is a class number
  have hlt := Cert.PreDecode.label_lt _ _ (hpre c)
  let lab : Fin 65536 → Fin 1000 := fun n => ⟨_, hlt n⟩
  have hlab : ∀ n, m ((c.tc : Thread Cert.KernelIdeal.nD Cert.KernelIdeal.τ).loc Cert.KernelIdeal.main_arg1) (ix1 n) = BitVec.ofNat 32 (lab n).val :=
    fun n => BitVec.eq_of_toNat_eq (by rw [BitVec.toNat_ofNat]; exact (Nat.mod_eq_of_lt (BitVec.isLt _)).symm)
  rw [Cert.ReferenceIdeal.RV.loss_eq _ _ lab hlab,
    ← Spec.lossW_eq_lossR _ _ _ _ lab hlab (Cert.ReferenceIdeal.RV.den_pos _ _)]
  rw [Cert.ReferenceIdeal.RV.DR_eq, Cert.ReferenceIdeal.RV.CR_eq, Cert.KernelIdeal.KV.CK_eq]
  rfl

end Cert.Final

end
-- ==== Proof.lean ====
/-
  A contrastive loss over 65536 rows of 256 features and 1000 classes, computed by two kernel calls, against its plain
  array reference, equal over the extended reals whenever every label is a class number (0 ≤ label < 1000).

  Both programs divide each row by its Euclidean norm clamped from below, sum and count the normalized rows per class,
  divide each class sum by its clamped count to get the class centers, divide each center by its clamped norm, score
  every row against every center, and average a per-row loss built from the row's score at its own label and the
  squared hinges of all its scores.

  The first kernel call walks the rows in 32 blocks of 2048, half of them per core; a core keeps a running
  [1000, 256] block of class sums and a running [1000] block of counts, reset at its first block: the class sums are a
  product of the block's label indicator matrix, transposed, with the block's normalized rows, so over a core's
  sixteen blocks and then over the two cores they add up to the sum over all rows with a given label; the reference gets
  the same numbers by an accumulating scatter, and a sum over all rows regroups freely over the extended reals.
  The second kernel call walks the rows in 64 blocks of 1024 with a running total per core; it reads the centers
  with their norms already divided in, where the reference divides the scores instead: a positive denominator's
  inverse is a nonnegative real, and such a factor moves across a finite sum of extended reals, so the scores agree.
  The kernel reads a row's score at its label by summing the scores against the label's indicator, the reference by
  indexing at the label; these agree for a label that names a class, which is where the precondition is used.
  The host operations between the calls are the same operations in both programs, applied to equal arrays.

  Modules: Spec (the loss as one index-by-index function, and the two laws above); KPieces, KFold0, KFold1 (what each
  kernel call leaves in its output arrays, as folds over a core's run of blocks); KPay0, KPay1 (one block's arithmetic
  read at an index); KSum0, KSum1 (the folds added up over all rows); KHost, KRun (the host operations around the calls
  and the run of the whole program); RSum, RLoss (the reference's scatters, gathers and its tail read at an index);
  PreDecode (the precondition gives every label's range); Final (the five claims).
-/
import proofs.«431141_j78185584657074_2_alg».proof.Defs
import proofs.«431141_j78185584657074_2_alg».proof.Proof.Gen.Kernel
import proofs.«431141_j78185584657074_2_alg».proof.Proof.Gen.KernelIdeal
import proofs.«431141_j78185584657074_2_alg».proof.Proof.Gen.ReferenceIdeal
import proofs.«431141_j78185584657074_2_alg».proof.Proof.Gen.Pre_finite_inputs
import proofs.«431141_j78185584657074_2_alg».proof.Proof.Final

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Final.frame_k, Cert.Final.frame_ki, Cert.Final.frame_ri, Cert.Final.preserves, Cert.Final.algebraic⟩

end Cert.Proof

end
